-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S40x64 : Shape := ⟨2, ![40, 64]⟩
abbrev S40 : Shape := ⟨1, ![40]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_v43 : IVec S_ 1) (main_v50 : IVec S1600000 32) (main_c_18 : IVec S_ 32) : IVec S_ 1 :=
  let main_v51 : IVec S1600000 32 := broadcastInDim S1600000 ![] bcast_S_S1600000 main_c_18
  let main_v52 : IVec S1600000 1 := cmpi .sge main_v50 main_v51
  let main_c_19 : IVec S_ 32 := constantI S_ 32 99999#32
  let main_v53 : IVec S1600000 32 := broadcastInDim S1600000 ![] bcast_S_S1600000 main_c_19
  let main_v54 : IVec S1600000 1 := cmpi .sle main_v50 main_v53
  let main_v55 : IVec S1600000 1 := andi main_v52 main_v54
  let main_c_20 : IVec S_ 1 := constantI S_ 1 1#1
  let main_v56 : IVec S_ 1 := (fun x v => Host.reduce IntOp.andi x v reducesTo_S1600000_S_d0 h_S_) main_v55 main_c_20
  let main_v57 : IVec S_ 1 := andi main_v43 main_v56
  main_v57

def fn_part2 {F : FTy → Type} [FloatOps F] (main_arg1 : IVec S2x1600000 32) (main_arg8 : FVec F S40x64 .f32) (main_arg9 : FVec F S40 .f32) (main_v33 : IVec S_ 1) : IVec S_ 1 :=
  let main_v34 : FVec F S40x64 .f32 := Host.absf main_arg8
  let main_cst_12 : FVec F S_ .f32 := constant S_ .f32 0x7F800000#32
  let main_v35 : FVec F S40x64 .f32 := broadcastInDim S40x64 ![] bcast_S_S40x64 main_cst_12
  let main_v36 : IVec S40x64 1 := cmpf .olt main_v34 main_v35
  let main_c_13 : IVec S_ 1 := constantI S_ 1 1#1
  let main_v37 : IVec S_ 1 := (fun x v => Host.reduce IntOp.andi x v reducesTo_S40x64_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : IVec S1x1600000 32 := (extractStridedSlice S1x1600000 ![0, 0] · slices_S2x1600000_S1x1600000_0_0) main_arg1
  let main_v45 : IVec S1600000 32 := shapeCast S1600000 main_v44 shapeCasts_S1x1600000_S1600000
  let main_c_16 : IVec S_ 32 := constantI S_ 32 0#32
  let main_v46 : IVec S1600000 32 := broadcastInDim S1600000 ![] bcast_S_S1600000 main_c_16
  let main_v47 : IVec S1600000 1 := cmpi .slt main_v45 main_v46
  let main_c_17 : IVec S_ 32 := constantI S_ 32 100000#32
  let main_v48 : IVec S1600000 32 := broadcastInDim S1600000 ![] bcast_S_S1600000 main_c_17
  let main_v49 : IVec S1600000 32 := addi main_v45 main_v48
  let main_v50 : IVec S1600000 32 := select main_v47 main_v49 main_v45
  let main_c_18 : IVec S_ 32 := constantI S_ 32 0#32
  fn_part3 (F := F) main_v43 main_v50 main_c_18

def fn_part1 {F : FTy → Type} [FloatOps F] (main_arg1 : IVec S2x1600000 32) (main_arg5 : FVec F S64x64 .f32) (main_arg6 : FVec F S64 .f32) (main_arg7 : FVec F S64x64 .f32) (main_arg8 : FVec F S40x64 .f32) (main_arg9 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S40x64 .f32) (main_arg9 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S40x64 : Shape := ⟨2, ![40, 64]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩
abbrev S5000x1 : Shape := ⟨2, ![5000, 1]⟩
abbrev S1x40 : Shape := ⟨2, ![1, 40]⟩
abbrev S100000x40 : Shape := ⟨2, ![100000, 40]⟩
abbrev S5000x40 : Shape := ⟨2, ![5000, 40]⟩
abbrev S64x40 : Shape := ⟨2, ![64, 40]⟩

abbrev nBuf : Space → Nat
  | .hbm => 100
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S40x64, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1, .i32⟩
  | .hbm, ⟨23, _⟩ => ⟨S_, .i32⟩
  | .hbm, ⟨24, _⟩ => ⟨S1600000x1, .i32⟩
  | .hbm, ⟨25, _⟩ => ⟨S1600000x1, .i1⟩
  | .hbm, ⟨26, _⟩ => ⟨S1x1, .i32⟩
  | .hbm, ⟨27, _⟩ => ⟨S1600000x1, .i32⟩
  | .hbm, ⟨28, _⟩ => ⟨S1600000x1, .i1⟩
  | .hbm, ⟨29, _⟩ => ⟨S1600000x1, .i1⟩
  | .hbm, ⟨30, _⟩ => ⟨S_, .i1⟩
  | .hbm, ⟨31, _⟩ => ⟨S1600000, .i1⟩
  | .hbm, ⟨32, _⟩ => ⟨S1600000x64, .f32⟩
  | .hbm, ⟨33, _⟩ => ⟨S1600000x64, .i1⟩
  | .hbm, ⟨34, _⟩ => ⟨S_, .f32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S_, .f32⟩
  | .hbm, ⟨42, _⟩ => ⟨S1600000, .f32⟩
  | .hbm, ⟨43, _⟩ => ⟨S_, .f32⟩
  | .hbm, ⟨44, _⟩ => ⟨S100000, .f32⟩
  | .hbm, ⟨45, _⟩ => ⟨S1600000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S100000x1, .f32⟩
  | .hbm, ⟨54, _⟩ => ⟨S1x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1, .i32⟩
  | .hbm, ⟨65, _⟩ => ⟨S_, .i32⟩
  | .hbm, ⟨66, _⟩ => ⟨S1600000x1, .i32⟩
  | .hbm, ⟨67, _⟩ => ⟨S1600000x1, .i1⟩
  | .hbm, ⟨68, _⟩ => ⟨S1x1, .i32⟩
  | .hbm, ⟨69, _⟩ => ⟨S1600000x1, .i32⟩
  | .hbm, ⟨70, _⟩ => ⟨S1600000x1, .i1⟩
  | .hbm, ⟨71, _⟩ => ⟨S1600000x1, .i1⟩
  | .hbm, ⟨72, _⟩ => ⟨S_, .i1⟩
  | .hbm, ⟨73, _⟩ => ⟨S1600000, .i1⟩
  | .hbm, ⟨74, _⟩ => ⟨S1600000x64, .f32⟩
  | .hbm, ⟨75, _⟩ => ⟨S1600000x64, .i1⟩
  | .hbm, ⟨76, _⟩ => ⟨S_, .f32⟩
  | .hbm, ⟨77, _⟩ => ⟨S1600000x64, .f32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S_, .f32⟩
  | .hbm, ⟨84, _⟩ => ⟨S1600000, .f32⟩
  | .hbm, ⟨85, _⟩ => ⟨S_, .f32⟩
  | .hbm, ⟨86, _⟩ => ⟨S100000, .f32⟩
  | .hbm, ⟨87, _⟩ => ⟨S1600000x1, .i32⟩
  | .hbm, ⟨88, _⟩ => ⟨S100000, .f32⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S_, .f32⟩
  | .hbm, ⟨93, _⟩ => ⟨S100000, .f32⟩
  | .hbm, ⟨94, _⟩ => ⟨S100000, .f32⟩
  | .hbm, ⟨95, _⟩ => ⟨S100000x1, .f32⟩
  | .hbm, ⟨96, _⟩ => ⟨S1x64, .f32⟩
  | .hbm, ⟨97, _⟩ => ⟨S100000x64, .f32⟩
  | .hbm, ⟨98, _⟩ => ⟨S1x40, .f32⟩
  | .hbm, ⟨99, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S40x64, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst_0 : Ref sig .tc := ⟨.hbm, 41, rfl⟩
abbrev main_v8 : Ref sig .tc := ⟨.hbm, 42, rfl⟩
abbrev main_cst_1 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_2 : Ref sig .tc := ⟨.hbm, 47, rfl⟩
abbrev main_v12 : Ref sig .tc := ⟨.hbm, 48, rfl⟩
abbrev main_v13 : Ref sig .tc := ⟨.hbm, 49, rfl⟩
abbrev main_cst_3 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v19 : Ref sig .tc := ⟨.hbm, 78, rfl⟩
abbrev main_cst_4 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_cst_5 : Ref sig .tc := ⟨.hbm, 83, rfl⟩
abbrev main_v23 : Ref sig .tc := ⟨.hbm, 84, rfl⟩
abbrev main_cst_6 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_cst_7 : Ref sig .tc := ⟨.hbm, 89, rfl⟩
abbrev main_v27 : Ref sig .tc := ⟨.hbm, 90, rfl⟩
abbrev main_v28 : Ref sig .tc := ⟨.hbm, 91, rfl⟩
abbrev main_cst_8 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S40_S1x40 : S40.ShapeCasts S1x40
  inb_S40x64_S40x64_0_0 : ∀ a, (![0, 0] : Fin 2 → Nat) a + S40x64.size a ≤ S40x64.size a
  h_S40x64 : 0 < S40x64.numel
  transposes_S40x64_p1_0_S64x40 : S40x64.Transposes [1, 0] S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40x64.size a ≤ S40x64.size a
  hwx2_1 : ∀ i : grid2.Coords, EltTy.bits .f32 = 32 ∨ (Rect.block (s := S40x64) S40x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v7) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v33) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S40x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S40x64 : Shape := ⟨2, ![40, 64]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S64x40 : Shape := ⟨2, ![64, 40]⟩
abbrev S100000x40 : Shape := ⟨2, ![100000, 40]⟩
abbrev S1x40 : Shape := ⟨2, ![1, 40]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S40x64, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S64x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x40, .f32⟩
  | .hbm, ⟨87, _⟩ => ⟨S100000x40, .f32⟩
  | .hbm, ⟨88, _⟩ => ⟨S1x40, .f32⟩
  | .hbm, ⟨89, _⟩ => ⟨S100000x40, .f32⟩
  | .hbm, ⟨90, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KHostDefs.lean ====
/-
  The host side of the kernel's program: what the operations between the launch and each region compute.

  Row 0 of the edge table holds source nodes, row 1 destination nodes. A source index is first normalised (a negative
  one counts from the end), then a row of the feature table is gathered per edge; an edge whose normalised source lies
  outside `[0, 99999]` contributes a fill value instead. The gathered rows are added into their destination rows of a
  zero table (`aggOf`). The edge counts per destination, clipped below at one, are inverted and laid out as a column
  (`invOf`). Each bias vector is laid out as a row. The two layers apply the same chain, the second to the first's result.
-/
import proofs.«400879_j15814069584246_1_alg».proof.Proof.Gen.KernelIdeal

noncomputable section

namespace Cert.KernelIdeal.Host

open Cert.KernelIdeal Cert.KernelIdeal.Gen Idealize.ShloMosaic

variable {F : FTy → Type} [FloatOps F]

/-- Row 0 of the edge table: the source nodes. -/
def srcOf (e : IVec S2x1600000 32) : IVec S1600000 32 :=
  shapeCast S1600000 (extractStridedSlice S1x1600000 ![0, 0] e slices_S2x1600000_S1x1600000_0_0) shapeCasts_S1x1600000_S1600000

/-- Row 1 of the edge table: the destination nodes. -/
def dstOf (e : IVec S2x1600000 32) : IVec S1600000 32 :=
  shapeCast S1600000 (extractStridedSlice S1x1600000 ![1, 0] e slices_S2x1600000_S1x1600000_1_0) shapeCasts_S1x1600000_S1600000

/-- The source indices normalised (a negative index counts from the end), as a column. -/
def normIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Per edge, from the column of normalised source indices: does the index lie in `[0, 99999]`? -/
def maskOf (idx : IVec S1600000x1 32) : IVec S1600000 1 :=
  Host.reduce IntOp.andi
    (andi (cmpi .sge idx (broadcastInDim S1600000x1 ![] bcast_S_S1600000x1 (constantI S_ 32 0#32)))
      (cmpi .sle idx (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Per edge: does the normalised source index lie in `[0, 99999]`? -/
def inRange (s : IVec S1600000 32) : IVec S1600000 1 := maskOf (normIdx s)

/-- The feature row gathered per edge. -/
def rowsOf (f : FVec F S100000x64 .f32) (s : IVec S1600000 32) : FVec F S1600000x64 .f32 :=
  Host.gather gather_S100000x64_S1600000x1_S1600000x64_1_0_n_n_0_1_164 f (normIdx s)

/-- The per-edge messages: the gathered row where the source index is in range, the fill value elsewhere. -/
def msgsOf (f : FVec F S100000x64 .f32) (s : IVec S1600000 32) : FVec F S1600000x64 .f32 :=
  select (broadcastInDim S1600000x64 ![0] bcast_S1600000_S1600000x64_0 (inRange s)) (rowsOf f s)
    (broadcastInDim S1600000x64 ![] bcast_S_S1600000x64 (constant S_ .f32 0x7FC00000#32))

/-- A table of per-edge rows added into their destination rows of a zero table. -/
def sumInto (u : FVec F S1600000x64 .f32) (d : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d) u

/-- The aggregated neighbour rows. -/
def aggOf (f : FVec F S100000x64 .f32) (s d : IVec S1600000 32) : FVec F S100000x64 .f32 :=
  sumInto (msgsOf f s) d

/-- The neighbour counts, clipped below at one. -/
def cntOf (d : IVec S1600000 32) : FVec F S100000 .f32 :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 d)
      (broadcastInDim S1600000 ![] bcast_S_S1600000 (constant S_ .f32 0x3F800000#32)))
    (broadcastInDim S100000 ![] bcast_S_S100000 (constant S_ .f32 0x3F800000#32))

/-- The reciprocals of the clipped counts, as a column. -/
def invOf (d : IVec S1600000 32) : FVec F S100000x1 .f32 :=
  shapeCast S100000x1
    (Host.divf (broadcastInDim S100000 ![] bcast_S_S100000 (constant S_ .f32 0x3F800000#32)) (cntOf (F := F) d))
    shapeCasts_S100000_S100000x1

/-- A bias vector as a row. -/
def rowOf (b : FVec F S64 .f32) : FVec F S1x64 .f32 := shapeCast S1x64 b shapeCasts_S64_S1x64

/-- The class bias as a row. -/
def rowOf40 (b : FVec F S40 .f32) : FVec F S1x40 .f32 := shapeCast S1x40 b shapeCasts_S40_S1x40

end Cert.KernelIdeal.Host

end
-- ==== Proof.KHost.lean ====
/-
  What each stretch of host operations of the kernel's program leaves in the buffers the regions read, from any contents
  `W` it starts from: the edge table split, the per-edge messages, the aggregated rows, the reciprocal counts, the bias
  rows; and which buffers a stretch leaves as it found them. The chain that gathers the messages is read in three segments
  (the index column; its range test; the gather and the select), the column named once and not re-derived per consumer.
-/
import proofs.«400879_j15814069584246_1_alg».proof.Proof.Gen.KernelIdeal.Launch
import proofs.«400879_j15814069584246_1_alg».proof.Proof.KHostDefs
import Idealize.ShloMosaic.Lib.StableHlo.Run
import Idealize.ShloMosaic.Lib.Pipeline.Frame

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

/-! ## What each stretch leaves alone -/

theorem kept_hostOps0_main_arg0 : StableHlo.after (hostOps0 (F := F)) W (Proc.devRef .tc main_arg0) = W (Proc.devRef .tc main_arg0) := by
  simp only [hostOps0]; after_results
theorem kept_hostOps0_main_arg2 : StableHlo.after (hostOps0 (F := F)) W (Proc.devRef .tc main_arg2) = W (Proc.devRef .tc main_arg2) := by
  simp only [hostOps0]; after_results
theorem kept_hostOps0_main_arg3 : StableHlo.after (hostOps0 (F := F)) W (Proc.devRef .tc main_arg3) = W (Proc.devRef .tc main_arg3) := by
  simp only [hostOps0]; after_results
theorem kept_hostOps0_main_arg4 : StableHlo.after (hostOps0 (F := F)) W (Proc.devRef .tc main_arg4) = W (Proc.devRef .tc main_arg4) := by
  simp only [hostOps0]; after_results
theorem kept_hostOps0_main_arg5 : StableHlo.after (hostOps0 (F := F)) W (Proc.devRef .tc main_arg5) = W (Proc.devRef .tc main_arg5) := by
  simp only [hostOps0]; after_results
theorem kept_hostOps0_main_arg6 : StableHlo.after (hostOps0 (F := F)) W (Proc.devRef .tc main_arg6) = W (Proc.devRef .tc main_arg6) := by
  simp only [hostOps0]; after_results
theorem kept_hostOps0_main_arg7 : StableHlo.after (hostOps0 (F := F)) W (Proc.devRef .tc main_arg7) = W (Proc.devRef .tc main_arg7) := by
  simp only [hostOps0]; after_results
theorem kept_hostOps0_main_arg8 : StableHlo.after (hostOps0 (F := F)) W (Proc.devRef .tc main_arg8) = W (Proc.devRef .tc main_arg8) := by
  simp only [hostOps0]; after_results
theorem kept_hostOps0_main_arg9 : StableHlo.after (hostOps0 (F := F)) W (Proc.devRef .tc main_arg9) = W (Proc.devRef .tc main_arg9) := by
  simp only [hostOps0]; after_results
theorem kept_hostOps0_1_main_arg0 : StableHlo.after (hostOps0_1 (F := F)) W (Proc.devRef .tc main_arg0) = W (Proc.devRef .tc main_arg0) := by
  simp only [hostOps0_1]; after_results
theorem kept_hostOps0_1_main_arg2 : StableHlo.after (hostOps0_1 (F := F)) W (Proc.devRef .tc main_arg2) = W (Proc.devRef .tc main_arg2) := by
  simp only [hostOps0_1]; after_results
theorem kept_hostOps0_1_main_arg3 : StableHlo.after (hostOps0_1 (F := F)) W (Proc.devRef .tc main_arg3) = W (Proc.devRef .tc main_arg3) := by
  simp only [hostOps0_1]; after_results
theorem kept_hostOps0_1_main_arg4 : StableHlo.after (hostOps0_1 (F := F)) W (Proc.devRef .tc main_arg4) = W (Proc.devRef .tc main_arg4) := by
  simp only [hostOps0_1]; after_results
theorem kept_hostOps0_1_main_arg5 : StableHlo.after (hostOps0_1 (F := F)) W (Proc.devRef .tc main_arg5) = W (Proc.devRef .tc main_arg5) := by
  simp only [hostOps0_1]; after_results
theorem kept_hostOps0_1_main_arg6 : StableHlo.after (hostOps0_1 (F := F)) W (Proc.devRef .tc main_arg6) = W (Proc.devRef .tc main_arg6) := by
  simp only [hostOps0_1]; after_results
theorem kept_hostOps0_1_main_arg7 : StableHlo.after (hostOps0_1 (F := F)) W (Proc.devRef .tc main_arg7) = W (Proc.devRef .tc main_arg7) := by
  simp only [hostOps0_1]; after_results
theorem kept_hostOps0_1_main_arg8 : StableHlo.after (hostOps0_1 (F := F)) W (Proc.devRef .tc main_arg8) = W (Proc.devRef .tc main_arg8) := by
  simp only [hostOps0_1]; after_results
theorem kept_hostOps0_1_main_arg9 : StableHlo.after (hostOps0_1 (F := F)) W (Proc.devRef .tc main_arg9) = W (Proc.devRef .tc main_arg9) := by
  simp only [hostOps0_1]; after_results
theorem kept_hostOps0_1_main_v1 : StableHlo.after (hostOps0_1 (F := F)) W (Proc.devRef .tc main_v1) = W (Proc.devRef .tc main_v1) := by
  simp only [hostOps0_1]; after_results
theorem kept_hostOps0_1_main_v3 : StableHlo.after (hostOps0_1 (F := F)) W (Proc.devRef .tc main_v3) = W (Proc.devRef .tc main_v3) := by
  simp only [hostOps0_1]; after_results
theorem kept_hostOps0_2_main_arg0 : StableHlo.after (hostOps0_2 (F := F)) W (Proc.devRef .tc main_arg0) = W (Proc.devRef .tc main_arg0) := by
  simp only [hostOps0_2]; after_results
theorem kept_hostOps0_2_main_arg2 : StableHlo.after (hostOps0_2 (F := F)) W (Proc.devRef .tc main_arg2) = W (Proc.devRef .tc main_arg2) := by
  simp only [hostOps0_2]; after_results
theorem kept_hostOps0_2_main_arg4 : StableHlo.after (hostOps0_2 (F := F)) W (Proc.devRef .tc main_arg4) = W (Proc.devRef .tc main_arg4) := by
  simp only [hostOps0_2]; after_results
theorem kept_hostOps0_2_main_arg5 : StableHlo.after (hostOps0_2 (F := F)) W (Proc.devRef .tc main_arg5) = W (Proc.devRef .tc main_arg5) := by
  simp only [hostOps0_2]; after_results
theorem kept_hostOps0_2_main_arg6 : StableHlo.after (hostOps0_2 (F := F)) W (Proc.devRef .tc main_arg6) = W (Proc.devRef .tc main_arg6) := by
  simp only [hostOps0_2]; after_results
theorem kept_hostOps0_2_main_arg7 : StableHlo.after (hostOps0_2 (F := F)) W (Proc.devRef .tc main_arg7) = W (Proc.devRef .tc main_arg7) := by
  simp only [hostOps0_2]; after_results
theorem kept_hostOps0_2_main_arg8 : StableHlo.after (hostOps0_2 (F := F)) W (Proc.devRef .tc main_arg8) = W (Proc.devRef .tc main_arg8) := by
  simp only [hostOps0_2]; after_results
theorem kept_hostOps0_2_main_arg9 : StableHlo.after (hostOps0_2 (F := F)) W (Proc.devRef .tc main_arg9) = W (Proc.devRef .tc main_arg9) := by
  simp only [hostOps0_2]; after_results
theorem kept_hostOps0_2_main_v1 : StableHlo.after (hostOps0_2 (F := F)) W (Proc.devRef .tc main_v1) = W (Proc.devRef .tc main_v1) := by
  simp only [hostOps0_2]; after_results
theorem kept_hostOps0_2_main_v3 : StableHlo.after (hostOps0_2 (F := F)) W (Proc.devRef .tc main_v3) = W (Proc.devRef .tc main_v3) := by
  simp only [hostOps0_2]; after_results
theorem kept_hostOps1_main_v18 : StableHlo.after (hostOps1 (F := F)) W (Proc.devRef .tc main_v18) = W (Proc.devRef .tc main_v18) := by
  simp only [hostOps1]; after_results
theorem kept_hostOps1_main_arg5 : StableHlo.after (hostOps1 (F := F)) W (Proc.devRef .tc main_arg5) = W (Proc.devRef .tc main_arg5) := by
  simp only [hostOps1]; after_results
theorem kept_hostOps1_main_arg6 : StableHlo.after (hostOps1 (F := F)) W (Proc.devRef .tc main_arg6) = W (Proc.devRef .tc main_arg6) := by
  simp only [hostOps1]; after_results
theorem kept_hostOps1_main_arg7 : StableHlo.after (hostOps1 (F := F)) W (Proc.devRef .tc main_arg7) = W (Proc.devRef .tc main_arg7) := by
  simp only [hostOps1]; after_results
theorem kept_hostOps1_main_arg8 : StableHlo.after (hostOps1 (F := F)) W (Proc.devRef .tc main_arg8) = W (Proc.devRef .tc main_arg8) := by
  simp only [hostOps1]; after_results
theorem kept_hostOps1_main_arg9 : StableHlo.after (hostOps1 (F := F)) W (Proc.devRef .tc main_arg9) = W (Proc.devRef .tc main_arg9) := by
  simp only [hostOps1]; after_results
theorem kept_hostOps1_main_v3 : StableHlo.after (hostOps1 (F := F)) W (Proc.devRef .tc main_v3) = W (Proc.devRef .tc main_v3) := by
  simp only [hostOps1]; after_results
theorem kept_hostOps1_1_main_v18 : StableHlo.after (hostOps1_1 (F := F)) W (Proc.devRef .tc main_v18) = W (Proc.devRef .tc main_v18) := by
  simp only [hostOps1_1]; after_results
theorem kept_hostOps1_1_main_arg5 : StableHlo.after (hostOps1_1 (F := F)) W (Proc.devRef .tc main_arg5) = W (Proc.devRef .tc main_arg5) := by
  simp only [hostOps1_1]; after_results
theorem kept_hostOps1_1_main_arg7 : StableHlo.after (hostOps1_1 (F := F)) W (Proc.devRef .tc main_arg7) = W (Proc.devRef .tc main_arg7) := by
  simp only [hostOps1_1]; after_results
theorem kept_hostOps1_1_main_arg8 : StableHlo.after (hostOps1_1 (F := F)) W (Proc.devRef .tc main_arg8) = W (Proc.devRef .tc main_arg8) := by
  simp only [hostOps1_1]; after_results
theorem kept_hostOps1_1_main_arg9 : StableHlo.after (hostOps1_1 (F := F)) W (Proc.devRef .tc main_arg9) = W (Proc.devRef .tc main_arg9) := by
  simp only [hostOps1_1]; after_results
theorem kept_hostOps2_main_v33 : StableHlo.after (hostOps2 (F := F)) W (Proc.devRef .tc main_v33) = W (Proc.devRef .tc main_v33) := by
  simp only [hostOps2]; after_results
theorem kept_hostOps2_main_arg8 : StableHlo.after (hostOps2 (F := F)) W (Proc.devRef .tc main_arg8) = W (Proc.devRef .tc main_arg8) := by
  simp only [hostOps2]; after_results

/-! ## The first stretch splits the edge table -/

theorem split_src : StableHlo.after (hostOps0 (F := F)) W (Proc.devRef .tc main_v1) = srcOf (W (Proc.devRef .tc main_arg1)) := by
  simp only [hostOps0]; after_results; rfl
theorem split_dst : StableHlo.after (hostOps0 (F := F)) W (Proc.devRef .tc main_v3) = dstOf (W (Proc.devRef .tc main_arg1)) := by
  simp only [hostOps0]; after_results; rfl

/-! ## Layer 0: the gather chain in three segments, then the scatter -/

/-- The normalised source indices as a column. -/
theorem idx0 : StableHlo.after ((hostOps0_1 (F := F)).take 8) W (Proc.devRef .tc main_call0_v5) = normIdx (W (Proc.devRef .tc main_v1)) := by
  simp only [hostOps0_1, List.take]; after_results; rfl
theorem idx0_feat : StableHlo.after ((hostOps0_1 (F := F)).take 8) W (Proc.devRef .tc main_arg0) = W (Proc.devRef .tc main_arg0) := by
  simp only [hostOps0_1, List.take]; after_results

/-- The range test of that column, per edge. -/
theorem mask0 : StableHlo.after (((hostOps0_1 (F := F)).drop 8).take 10) W (Proc.devRef .tc main_call0_v12) = maskOf (W (Proc.devRef .tc main_call0_v5)) := by
  simp only [hostOps0_1, List.take, List.drop]; after_results
  dsimp only [TRef.ofBuf, TRef.toBuf, cast_eq]
  rfl
theorem mask0_idx : StableHlo.after (((hostOps0_1 (F := F)).drop 8).take 10) W (Proc.devRef .tc main_call0_v5) = W (Proc.devRef .tc main_call0_v5) := by
  simp only [hostOps0_1, List.take, List.drop]; after_results
theorem mask0_feat : StableHlo.after (((hostOps0_1 (F := F)).drop 8).take 10) W (Proc.devRef .tc main_arg0) = W (Proc.devRef .tc main_arg0) := by
  simp only [hostOps0_1, List.take, List.drop]; after_results

/-- The gathered rows, the fill value where the range test fails. -/
theorem sel0 : StableHlo.after ((hostOps0_1 (F := F)).drop 18) W (Proc.devRef .tc main_v4)
    = select (broadcastInDim S1600000x64 ![0] bcast_S1600000_S1600000x64_0 (W (Proc.devRef .tc main_call0_v12)))
        (Host.gather gather_S100000x64_S1600000x1_S1600000x64_1_0_n_n_0_1_164 (W (Proc.devRef .tc main_arg0)) (W (Proc.devRef .tc main_call0_v5)))
        (broadcastInDim S1600000x64 ![] bcast_S_S1600000x64 (constant S_ .f32 0x7FC00000#32)) := by
  simp only [hostOps0_1, List.drop]; after_results; rfl

/-- The whole gather chain: the per-edge messages. -/
theorem msgs0 : StableHlo.after (hostOps0_1 (F := F)) W (Proc.devRef .tc main_v4)
    = msgsOf (F := F) (W (Proc.devRef .tc main_arg0)) (W (Proc.devRef .tc main_v1)) := by
  have e : (hostOps0_1 (F := F)) = (hostOps0_1 (F := F)).take 8 ++ (((hostOps0_1 (F := F)).drop 8).take 10 ++ (hostOps0_1 (F := F)).drop 18) := rfl
  rw [e, StableHlo.after_append, StableHlo.after_append, sel0, mask0, mask0_idx, mask0_feat, idx0, idx0_feat]
  rfl

/-- The scatter, the counts and the bias row, from the contents `V` the gather chain leaves. -/
theorem sum0 (V : Valuation τ sig (Elt F)) : StableHlo.after (hostOps0_2 (F := F)) V (Proc.devRef .tc main_v7)
    = sumInto (F := F) (V (Proc.devRef .tc main_v4)) (V (Proc.devRef .tc main_v3)) := by
  simp only [hostOps0_2]; after_results; rfl
theorem inv0 (V : Valuation τ sig (Elt F)) : StableHlo.after (hostOps0_2 (F := F)) V (Proc.devRef .tc main_v16)
    = invOf (F := F) (V (Proc.devRef .tc main_v3)) := by
  simp only [hostOps0_2]; after_results; rfl
theorem row0 (V : Valuation τ sig (Elt F)) : StableHlo.after (hostOps0_2 (F := F)) V (Proc.devRef .tc main_v17)
    = rowOf (F := F) (V (Proc.devRef .tc main_arg3)) := by
  simp only [hostOps0_2]; after_results; rfl

/-- Layer 0's aggregated rows. -/
theorem agg0 : StableHlo.after (hostOps0_2 (F := F)) (StableHlo.after (hostOps0_1 (F := F)) W) (Proc.devRef .tc main_v7)
    = aggOf (F := F) (W (Proc.devRef .tc main_arg0)) (W (Proc.devRef .tc main_v1)) (W (Proc.devRef .tc main_v3)) := by
  rw [sum0, msgs0, kept_hostOps0_1_main_v3]; rfl

/-! ## Layer 1: the gather chain in three segments, then the scatter -/

/-- The normalised source indices as a column. -/
theorem idx1 : StableHlo.after ((hostOps1 (F := F)).take 8) W (Proc.devRef .tc main_call1_v5) = normIdx (W (Proc.devRef .tc main_v1)) := by
  simp only [hostOps1, List.take]; after_results; rfl
theorem idx1_feat : StableHlo.after ((hostOps1 (F := F)).take 8) W (Proc.devRef .tc main_v18) = W (Proc.devRef .tc main_v18) := by
  simp only [hostOps1, List.take]; after_results

/-- The range test of that column, per edge. -/
theorem mask1 : StableHlo.after (((hostOps1 (F := F)).drop 8).take 10) W (Proc.devRef .tc main_call1_v12) = maskOf (W (Proc.devRef .tc main_call1_v5)) := by
  simp only [hostOps1, List.take, List.drop]; after_results
  dsimp only [TRef.ofBuf, TRef.toBuf, cast_eq]
  rfl
theorem mask1_idx : StableHlo.after (((hostOps1 (F := F)).drop 8).take 10) W (Proc.devRef .tc main_call1_v5) = W (Proc.devRef .tc main_call1_v5) := by
  simp only [hostOps1, List.take, List.drop]; after_results
theorem mask1_feat : StableHlo.after (((hostOps1 (F := F)).drop 8).take 10) W (Proc.devRef .tc main_v18) = W (Proc.devRef .tc main_v18) := by
  simp only [hostOps1, List.take, List.drop]; after_results

/-- The gathered rows, the fill value where the range test fails. -/
theorem sel1 : StableHlo.after ((hostOps1 (F := F)).drop 18) W (Proc.devRef .tc main_v19)
    = select (broadcastInDim S1600000x64 ![0] bcast_S1600000_S1600000x64_0 (W (Proc.devRef .tc main_call1_v12)))
        (Host.gather gather_S100000x64_S1600000x1_S1600000x64_1_0_n_n_0_1_164 (W (Proc.devRef .tc main_v18)) (W (Proc.devRef .tc main_call1_v5)))
        (broadcastInDim S1600000x64 ![] bcast_S_S1600000x64 (constant S_ .f32 0x7FC00000#32)) := by
  simp only [hostOps1, List.drop]; after_results; rfl

/-- The whole gather chain: the per-edge messages. -/
theorem msgs1 : StableHlo.after (hostOps1 (F := F)) W (Proc.devRef .tc main_v19)
    = msgsOf (F := F) (W (Proc.devRef .tc main_v18)) (W (Proc.devRef .tc main_v1)) := by
  have e : (hostOps1 (F := F)) = (hostOps1 (F := F)).take 8 ++ (((hostOps1 (F := F)).drop 8).take 10 ++ (hostOps1 (F := F)).drop 18) := rfl
  rw [e, StableHlo.after_append, StableHlo.after_append, sel1, mask1, mask1_idx, mask1_feat, idx1, idx1_feat]
  rfl

/-- The scatter, the counts and the bias row, from the contents `V` the gather chain leaves. -/
theorem sum1 (V : Valuation τ sig (Elt F)) : StableHlo.after (hostOps1_1 (F := F)) V (Proc.devRef .tc main_v22)
    = sumInto (F := F) (V (Proc.devRef .tc main_v19)) (V (Proc.devRef .tc main_v3)) := by
  simp only [hostOps1_1]; after_results; rfl
theorem inv1 (V : Valuation τ sig (Elt F)) : StableHlo.after (hostOps1_1 (F := F)) V (Proc.devRef .tc main_v31)
    = invOf (F := F) (V (Proc.devRef .tc main_v3)) := by
  simp only [hostOps1_1]; after_results; rfl
theorem row1 (V : Valuation τ sig (Elt F)) : StableHlo.after (hostOps1_1 (F := F)) V (Proc.devRef .tc main_v32)
    = rowOf (F := F) (V (Proc.devRef .tc main_arg6)) := by
  simp only [hostOps1_1]; after_results; rfl

/-- Layer 1's aggregated rows. -/
theorem agg1 : StableHlo.after (hostOps1_1 (F := F)) (StableHlo.after (hostOps1 (F := F)) W) (Proc.devRef .tc main_v22)
    = aggOf (F := F) (W (Proc.devRef .tc main_v18)) (W (Proc.devRef .tc main_v1)) (W (Proc.devRef .tc main_v3)) := by
  rw [sum1, msgs1, kept_hostOps1_main_v3]; rfl

/-! ## The class bias row -/

theorem row2 : StableHlo.after (hostOps2 (F := F)) W (Proc.devRef .tc main_v34) = rowOf40 (F := F) (W (Proc.devRef .tc main_arg9)) := by
  simp only [hostOps2]; after_results; rfl

end Cert.KernelIdeal.Host

end
-- ==== Proof.Spec.lean ====
/-
  The mathematics both programs compute, stated once over the extended reals.

  A mean-aggregating graph layer: for node `r` and output feature `j`,
    h(r, j) = max( ( Σ_k (agg(r,k) · s(r)) · Wl(j,k) + bl(j) ) + Σ_k feat(r,k) · Wr(j,k) , 0 )
  where `agg(r, ·)` is the sum of the neighbours' feature rows and `s(r)` is the reciprocal of the
  neighbour count clipped below at one. One program multiplies by the reciprocal `1 / c`, the other
  divides by `c`; for a divisor that is not zero the two agree on every extended real, infinities
  included, because division there IS multiplication by the inverse.
  The classifier is h(r, ·) · Wcᵀ + bc.
-/
import Idealize.ShloMosaic.PureOps.Ideal
import Idealize.ShloMosaic.Lib.ValueIdx

noncomputable section

namespace Cert.Sage

open Idealize.ShloMosaic Idealize.ShloMosaic.ValueIdx

/-- Multiplying by the reciprocal of a nonzero divisor is dividing by it, on all of the extended reals. -/
theorem mul_div_one (a c : EReal) (hc : c ≠ 0) : a * Ideal.div 1 c = Ideal.div a c := by
  unfold Ideal.div
  rw [if_neg hc, if_neg hc, one_mul]

/-- A count clipped below at one is never zero. -/
theorem max_one_ne_zero (n : EReal) : max n 1 ≠ 0 :=
  ne_of_gt (lt_of_lt_of_le zero_lt_one (le_max_right n 1))

/-- One entry of a layer's output from the rows it depends on: the aggregated row `a` scaled by `s`,
    against the row `wl` of the neighbour weights, plus the bias `b`, plus the node's own row `f`
    against the row `wr` of the self weights, clipped below at zero. -/
def entry (a : Fin 64 → EReal) (s : EReal) (f : Fin 64 → EReal) (wl wr : Fin 64 → EReal) (b : EReal) : EReal :=
  max (((∑ k : Fin 64, (a k * s) * wl k) + b) + ∑ k : Fin 64, f k * wr k) 0

/-- One entry of the classifier: the feature row against a row of the class weights, plus the class bias. -/
def logit (f : Fin 64 → EReal) (w : Fin 64 → EReal) (b : EReal) : EReal :=
  (∑ k : Fin 64, f k * w k) + b

abbrev SN64 : Shape := ⟨2, ![100000, 64]⟩
abbrev SN : Shape := ⟨1, ![100000]⟩
abbrev SW : Shape := ⟨2, ![64, 64]⟩
abbrev SB : Shape := ⟨1, ![64]⟩
abbrev SC : Shape := ⟨2, ![40, 64]⟩
abbrev SCB : Shape := ⟨1, ![40]⟩
abbrev SN40 : Shape := ⟨2, ![100000, 40]⟩

/-- A whole layer: `agg` the aggregated neighbour rows, `c` the clipped neighbour counts, `feat` the
    nodes' own rows. -/
def layer (agg : SN64.Idx → EReal) (c : SN.Idx → EReal) (feat : SN64.Idx → EReal)
    (Wl : SW.Idx → EReal) (bl : SB.Idx → EReal) (Wr : SW.Idx → EReal) : SN64.Idx → EReal :=
  fun i => entry (fun k => agg (ix2 (i 0) k)) (Ideal.div 1 (c (ix1 (i 0)))) (fun k => feat (ix2 (i 0) k))
    (fun k => Wl (ix2 (i 1) k)) (fun k => Wr (ix2 (i 1) k)) (bl (ix1 (i 1)))

/-- The classifier over all nodes. -/
def classify (feat : SN64.Idx → EReal) (Wc : SC.Idx → EReal) (bc : SCB.Idx → EReal) : SN40.Idx → EReal :=
  fun i => logit (fun k => feat (ix2 (i 0) k)) (fun k => Wc (ix2 (i 1) k)) (bc (ix1 (i 1)))

abbrev SN1 : Shape := ⟨2, ![100000, 1]⟩
abbrev SR64 : Shape := ⟨2, ![1, 64]⟩
abbrev SR40 : Shape := ⟨2, ![1, 40]⟩

/-- The same layer over the arrays in the layout a blocked computation holds them in: the reciprocal counts as a
    column `[N, 1]`, the bias as a row `[1, 64]`. -/
def layerK (agg : SN64.Idx → EReal) (inv : SN1.Idx → EReal) (feat : SN64.Idx → EReal)
    (Wl : SW.Idx → EReal) (bl : SR64.Idx → EReal) (Wr : SW.Idx → EReal) : SN64.Idx → EReal :=
  fun i => entry (fun k => agg (ix2 (i 0) k)) (inv (ix2 (i 0) (0 : Fin 1))) (fun k => feat (ix2 (i 0) k))
    (fun k => Wl (ix2 (i 1) k)) (fun k => Wr (ix2 (i 1) k)) (bl (ix2 (0 : Fin 1) (i 1)))

/-- The classifier with its bias as a row `[1, 40]`. -/
def classifyK (feat : SN64.Idx → EReal) (Wc : SC.Idx → EReal) (bc : SR40.Idx → EReal) : SN40.Idx → EReal :=
  fun i => logit (fun k => feat (ix2 (i 0) k)) (fun k => Wc (ix2 (i 1) k)) (bc (ix2 (0 : Fin 1) (i 1)))

theorem layer_apply (agg : SN64.Idx → EReal) (c : SN.Idx → EReal) (feat : SN64.Idx → EReal)
    (Wl : SW.Idx → EReal) (bl : SB.Idx → EReal) (Wr : SW.Idx → EReal) (r : Fin 100000) (j : Fin 64) :
    layer agg c feat Wl bl Wr (ix2 r j) = entry (fun k => agg (ix2 r k)) (Ideal.div 1 (c (ix1 r)))
      (fun k => feat (ix2 r k)) (fun k => Wl (ix2 j k)) (fun k => Wr (ix2 j k)) (bl (ix1 j)) := rfl

/-- The layer as written with the quotient inside the sum: for a divisor that is not zero it is the same entry. -/
theorem layer_of_div (agg : SN64.Idx → EReal) (c : SN.Idx → EReal) (feat : SN64.Idx → EReal)
    (Wl : SW.Idx → EReal) (bl : SB.Idx → EReal) (Wr : SW.Idx → EReal) (r : Fin 100000) (j : Fin 64) (hc : c (ix1 r) ≠ 0) :
    max (((∑ k : Fin 64, Ideal.div (agg (ix2 r k)) (c (ix1 r)) * Wl (ix2 j k)) + bl (ix1 j))
        + ∑ k : Fin 64, feat (ix2 r k) * Wr (ix2 j k)) 0 = layer agg c feat Wl bl Wr (ix2 r j) := by
  rw [layer_apply]
  unfold entry
  have e : ∀ k : Fin 64, Ideal.div (agg (ix2 r k)) (c (ix1 r)) * Wl (ix2 j k)
      = (agg (ix2 r k) * Ideal.div 1 (c (ix1 r))) * Wl (ix2 j k) := fun k => by rw [mul_div_one _ _ hc]
  rw [Finset.sum_congr rfl fun k _ => e k]

theorem classify_apply (feat : SN64.Idx → EReal) (Wc : SC.Idx → EReal) (bc : SCB.Idx → EReal)
    (r : Fin 100000) (j : Fin 40) :
    classify feat Wc bc (ix2 r j) = logit (fun k => feat (ix2 r k)) (fun k => Wc (ix2 j k)) (bc (ix1 j)) := rfl

end Cert.Sage

end
-- ==== Proof.LibBlockOps.lean ====
/-
  A COLUMN AND A ROW SPREAD OVER A TABLE, read at an element.

  A kernel body scales the rows of a block `[R, D]` by a column `[R, 1]` and adds a row `[1, D]` to each of its rows; both
  operands are first spread to the block's shape. Read at `(p, q)` the spread column is the column's entry `(p, 0)` and the
  spread row is the row's entry `(0, q)`: a spread repeats the operand along each of its unit axes.
-/
import Idealize.ShloMosaic.Lib.Pipeline.Value
import Idealize.ShloMosaic.Lib.ValueIdx

noncomputable section

namespace Cert.LibBlockOps

open Idealize.ShloMosaic Idealize.ShloMosaic.ValueIdx

/-- The one index of a unit axis. -/
abbrev u1 : Fin 1 := ⟨0, Nat.one_pos⟩

/-- A column `[R, 1]` spread to `[R, D]`, read at `(p, q)`: the column at `(p, 0)`. -/
theorem col_apply {α : Type} {R D : Nat} (x : (⟨2, ![R, 1]⟩ : Shape).Idx → α)
    (h2 : (⟨2, ![R, 1]⟩ : Shape).Broadcasts ⟨2, ![R, D]⟩) (p : Fin R) (q : Fin D) :
    broadcastTo ⟨2, ![R, D]⟩ x h2 (ix2 p q) = x (ix2 p u1) := by
  refine broadcastTo_apply x h2 (ix2 p q) (ix2 p u1) fun a => ?_
  match a with
  | ⟨0, _⟩ =>
    show p.val = if R = 1 then 0 else p.val
    split
    · have := p.isLt; omega
    · rfl
  | ⟨1, _⟩ =>
    show 0 = if (1 : Nat) = 1 then 0 else q.val
    rw [if_pos rfl]

/-- A row `[1, D]` spread to `[R, D]`, read at `(p, q)`: the row at `(0, q)`. -/
theorem row_apply {α : Type} {R D : Nat} (x : (⟨2, ![1, D]⟩ : Shape).Idx → α)
    (h2 : (⟨2, ![1, D]⟩ : Shape).Broadcasts ⟨2, ![R, D]⟩) (p : Fin R) (q : Fin D) :
    broadcastTo ⟨2, ![R, D]⟩ x h2 (ix2 p q) = x (ix2 u1 q) := by
  refine broadcastTo_apply x h2 (ix2 p q) (ix2 u1 q) fun a => ?_
  match a with
  | ⟨0, _⟩ =>
    show 0 = if (1 : Nat) = 1 then 0 else p.val
    rw [if_pos rfl]
  | ⟨1, _⟩ =>
    show q.val = if D = 1 then 0 else q.val
    split
    · have := q.isLt; omega
    · rfl

end Cert.LibBlockOps

end
-- ==== Proof.KPay.lean ====
/-
  Each kernel body's stored value at an entry, over the extended reals.

  A layer body multiplies the aggregated block row by row with the reciprocal-count column, takes that block
  against the transposed neighbour weights and the node block against the transposed self weights (each a
  product into a zero accumulator: a plain sum over the 64 contracted coordinates), adds the bias row to every
  row, and clips below at zero. Read at row `p` and column `j` that is one `Sage.entry`: the format changes are
  the identity on extended reals and a transposed weight block read at `(k, j)` is the block at `(j, k)`.
  The classifier body is one such product plus its bias row: a `Sage.logit`.
-/
import proofs.«400879_j15814069584246_1_alg».proof.Proof.Gen.KernelIdeal.Skeleton
import proofs.«400879_j15814069584246_1_alg».proof.Proof.Spec
import proofs.«400879_j15814069584246_1_alg».proof.Proof.LibBlockOps
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Sage Cert.LibBlockOps

/-! ## Which operand entries a product reads -/

theorem dk_lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dk_lhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dk_rhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dk_rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem dc_lhs0 (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem dc_lhs1 (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
theorem dc_rhs0 (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
theorem dc_rhs1 (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- A 5000 × 64 block against a transposed 64 × 64 weight block into the zero accumulator, at `(p, j)`: the sum over
    `k` of the block's `(p, k)` times the weights' `(j, k)`. -/
theorem matmulT64_apply (l : FVec Ideal S5000x64 .bf16) (w : FVec Ideal S64x64 .bf16) (p : Fin 5000) (j : Fin 64) :
    matmul dot_S5000x64_S64x64_S5000x64_1_0_0_1_n_n none l (transpose S64x64 [1, 0] w transposes_S64x64_p1_0_S64x64)
      (constant S5000x64 .f32 0x00000000#32) (ix2 p j) = ∑ k : Fin 64, l (ix2 p k) * w (ix2 j k) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p j) ((contrEquiv1 dot_S5000x64_S64x64_S5000x64_1_0_0_1_n_n 64 rfl rfl).symm k) = ix2 p k := funext fun a => Fin.ext (by
    match a with
    | ⟨0, _⟩ => exact dk_lhs0 _ _
    | ⟨1, _⟩ => exact (dk_lhs1 _ _).trans hk)
  have er : dot_S5000x64_S64x64_S5000x64_1_0_0_1_n_n.rhsIdx (ix2 p j) ((contrEquiv1 dot_S5000x64_S64x64_S5000x64_1_0_0_1_n_n 64 rfl rfl).symm k) = ix2 k j := funext fun a => Fin.ext (by
    match a with
    | ⟨0, _⟩ => exact (dk_rhs0 _ _).trans hk
    | ⟨1, _⟩ => exact dk_rhs1 _ _)
  rw [el, er]
  exact congrArg (l (ix2 p k) * ·) (transpose_apply [1, 0] w transposes_S64x64_p1_0_S64x64 (ix2 k j) (ix2 j k) (fun b => match b with
    | ⟨0, _⟩ => rfl
    | ⟨1, _⟩ => rfl))

/-- A 5000 × 64 block against a transposed 40 × 64 weight block into the zero accumulator, at `(p, j)`. -/
theorem matmulT40_apply (l : FVec Ideal S5000x64 .bf16) (w : FVec Ideal S40x64 .bf16) (p : Fin 5000) (j : Fin 40) :
    matmul dot_S5000x64_S64x40_S5000x40_1_0_0_1_n_n none l (transpose S64x40 [1, 0] w transposes_S40x64_p1_0_S64x40)
      (constant S5000x40 .f32 0x00000000#32) (ix2 p j) = ∑ k : Fin 64, l (ix2 p k) * w (ix2 j k) := by
  simp only [matmul]
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p j) ((contrEquiv1 dot_S5000x64_S64x40_S5000x40_1_0_0_1_n_n 64 rfl rfl).symm k) = ix2 p k := funext fun a => Fin.ext (by
    match a with
    | ⟨0, _⟩ => exact dc_lhs0 _ _
    | ⟨1, _⟩ => exact (dc_lhs1 _ _).trans hk)
  have er : dot_S5000x64_S64x40_S5000x40_1_0_0_1_n_n.rhsIdx (ix2 p j) ((contrEquiv1 dot_S5000x64_S64x40_S5000x40_1_0_0_1_n_n 64 rfl rfl).symm k) = ix2 k j := funext fun a => Fin.ext (by
    match a with
    | ⟨0, _⟩ => exact (dc_rhs0 _ _).trans hk
    | ⟨1, _⟩ => exact dc_rhs1 _ _)
  rw [el, er]
  exact congrArg (l (ix2 p k) * ·) (transpose_apply [1, 0] w transposes_S40x64_p1_0_S64x40 (ix2 k j) (ix2 j k) (fun b => match b with
    | ⟨0, _⟩ => rfl
    | ⟨1, _⟩ => rfl))

/-! ## The three bodies at an entry -/

/-- The first layer's body at `(p, j)`. -/
theorem pay0_apply (agg : Vec Ideal S5000x64 .f32) (inv : Vec Ideal S5000x1 .f32) (feat : Vec Ideal S5000x64 .f32)
    (wl wr : Vec Ideal S64x64 .f32) (b : Vec Ideal S1x64 .f32) (p : Fin 5000) (j : Fin 64) :
    k0_pay1 (F := Ideal) agg inv feat wl wr b (ix2 p j)
      = entry (fun k => agg (ix2 p k)) (inv (ix2 p u1)) (fun k => feat (ix2 p k))
          (fun k => wl (ix2 j k)) (fun k => wr (ix2 j k)) (b (ix2 u1 j)) := by
  unfold k0_pay1 entry
  simp only [shapeCast_self]
  rw [maximumf_apply, addf_apply, addf_apply, matmulT64_apply, matmulT64_apply, row_apply, broadcast_apply]
  simp only [truncf_apply, mulf_apply, col_apply]
  rw [show (Scalar.ofBits (F := Ideal) .f32 0x00000000#32 : EReal) = 0 from Ideal.ofBits_zero_f32]

/-- The second layer's body at `(p, j)` (the same arithmetic; the node block passes one more identity cast). -/
theorem pay1_apply (agg : Vec Ideal S5000x64 .f32) (inv : Vec Ideal S5000x1 .f32) (feat : Vec Ideal S5000x64 .f32)
    (wl wr : Vec Ideal S64x64 .f32) (b : Vec Ideal S1x64 .f32) (p : Fin 5000) (j : Fin 64) :
    k1_pay1 (F := Ideal) agg inv feat wl wr b (ix2 p j)
      = entry (fun k => agg (ix2 p k)) (inv (ix2 p u1)) (fun k => feat (ix2 p k))
          (fun k => wl (ix2 j k)) (fun k => wr (ix2 j k)) (b (ix2 u1 j)) := by
  unfold k1_pay1 entry
  simp only [shapeCast_self]
  rw [maximumf_apply, addf_apply, addf_apply, matmulT64_apply, matmulT64_apply, row_apply, broadcast_apply]
  simp only [truncf_apply, mulf_apply, col_apply]
  rw [show (Scalar.ofBits (F := Ideal) .f32 0x00000000#32 : EReal) = 0 from Ideal.ofBits_zero_f32]

/-- The classifier's body at `(p, j)`. -/
theorem pay2_apply (feat : Vec Ideal S5000x64 .f32) (wc : Vec Ideal S40x64 .f32) (b : Vec Ideal S1x40 .f32)
    (p : Fin 5000) (j : Fin 40) :
    k2_pay1 (F := Ideal) feat wc b (ix2 p j)
      = logit (fun k => feat (ix2 p k)) (fun k => wc (ix2 j k)) (b (ix2 u1 j)) := by
  unfold k2_pay1 logit
  simp only [shapeCast_self]
  rw [addf_apply, matmulT40_apply, row_apply]
  simp only [truncf_apply]

end Cert.KernelIdeal.Pay

end
-- ==== Proof.KBlocks0.lean ====
/-
  The first layer's result array, from its blocks.

  The layer runs on a grid of 20 points; point `t` reads rows `5000 t … 5000 t + 4999` of the aggregated rows, of the
  reciprocal-count column and of the node rows, the whole of both weight tables and of the bias row, and writes back the
  same 5000 rows of the result. Entry `(p, j)` of what it writes is `Sage.entry` of rows `5000 t + p` of the three tall arrays and
  rows `j` of the weights: entry `(5000 t + p, j)` of `Sage.layerK` of the whole arrays. The 20 blocks cover every row
  (row `r` lies in block `r / 5000`), so the array ends holding `Sage.layerK` of the arrays the region is entered with.
-/
import proofs.«400879_j15814069584246_1_alg».proof.Proof.Gen.KernelIdeal.Frame
import proofs.«400879_j15814069584246_1_alg».proof.Proof.KPay
import Idealize.ShloMosaic.Lib.Pipeline.Value

set_option maxRecDepth 16384

noncomputable section

namespace Cert.KernelIdeal.Blocks0

open Cert.KernelIdeal Cert.KernelIdeal.Gen Cert.KernelIdeal.Pay Idealize.ShloMosaic Idealize.ShloMosaic.TcCoe Idealize.SL.Sem
open Idealize.ShloMosaic.ValueIdx Cert.Sage Cert.LibBlockOps
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three tall windows and the result move down one block of rows per point,
    the weights and the bias row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The result array the region leaves, as a function of the arrays it is entered with. -/
abbrev result (c : Dev nD) : S100000x64.Idx → Elt Ideal .f32 :=
  layerK (V c main_v7) (V c main_v16) (V c main_arg0) (V c main_arg2) (V c main_v17) (V c main_arg4)

/-- What point `t` writes back is block `t` of `result`. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz, View.ld_unit_zero (S := S64x64) hz, View.ld_unit_zero (S := S1x64) hz]
  funext y
  obtain ⟨p, j, rfl⟩ : ∃ (p : Fin 5000) (j : Fin 64), y = ix2 p j := ⟨y 0, y 1, eq_ix2 y⟩
  obtain ⟨h00, h01, h10, h11, h20, h21, h30, h31, h40, h41, h50, h51, h60, h61⟩ := idx_facts t
  have ht : t.val < 20 := lt_of_lt_of_eq t.isLt (show cfg0.N = 20 from N_0)
  have hp : p.val < 5000 := p.isLt
  have hemb : ((cfg0.win 6).blk t).view.emb (ix2 p j) = (ix2 (⟨5000 * t.val + p.val, by omega⟩ : Fin 100000) j : S100000x64.Idx) :=
    funext fun a => Fin.ext (by
      match a with
      | ⟨0, _⟩ => show win0_6.index t (0 : Fin 2) * 5000 + 1 * p.val = 5000 * t.val + p.val; omega
      | ⟨1, _⟩ => show win0_6.index t (1 : Fin 2) * 64 + 1 * j.val = j.val; omega)
  show k0_pay1 (F := Ideal) (iblk0 V c 0 t) (iblk0 V c 1 t) (iblk0 V c 2 t) (iblk0 V c 3 t) (iblk0 V c 5 t) (iblk0 V c 4 t) (ix2 p j)
    = result V c (((cfg0.win 6).blk t).view.emb (ix2 p j))
  rw [hemb]
  refine (pay0_apply (iblk0 V c 0 t) (iblk0 V c 1 t) (iblk0 V c 2 t) (iblk0 V c 3 t) (iblk0 V c 5 t) (iblk0 V c 4 t) p j).trans ?_
  have e0 : ∀ k : Fin 64, iblk0 V c 0 t (ix2 p k) = V c main_v7 (ix2 (⟨5000 * t.val + p.val, by omega⟩ : Fin 100000) k) := fun k => by
    show V c main_v7 (((cfg0.win 0).blk t).view.emb (ix2 p k)) = V c main_v7 (ix2 (⟨5000 * t.val + p.val, by omega⟩ : Fin 100000) k)
    exact congrArg (V c main_v7) (funext fun a => Fin.ext (by
      match a with
      | ⟨0, _⟩ => show win0_0.index t (0 : Fin 2) * 5000 + 1 * p.val = 5000 * t.val + p.val; omega
      | ⟨1, _⟩ => show win0_0.index t (1 : Fin 2) * 64 + 1 * k.val = k.val; omega))
  have e1 : iblk0 V c 1 t (ix2 p u1) = V c main_v16 (ix2 (⟨5000 * t.val + p.val, by omega⟩ : Fin 100000) (0 : Fin 1)) := by
    show V c main_v16 (((cfg0.win 1).blk t).view.emb (ix2 p u1)) = V c main_v16 (ix2 (⟨5000 * t.val + p.val, by omega⟩ : Fin 100000) (0 : Fin 1))
    exact congrArg (V c main_v16) (funext fun a => Fin.ext (by
      match a with
      | ⟨0, _⟩ => show win0_1.index t (0 : Fin 2) * 5000 + 1 * p.val = 5000 * t.val + p.val; omega
      | ⟨1, _⟩ => show win0_1.index t (1 : Fin 2) * 1 + 1 * 0 = 0; omega))
  have e2 : ∀ k : Fin 64, iblk0 V c 2 t (ix2 p k) = V c main_arg0 (ix2 (⟨5000 * t.val + p.val, by omega⟩ : Fin 100000) k) := fun k => by
    show V c main_arg0 (((cfg0.win 2).blk t).view.emb (ix2 p k)) = V c main_arg0 (ix2 (⟨5000 * t.val + p.val, by omega⟩ : Fin 100000) k)
    exact congrArg (V c main_arg0) (funext fun a => Fin.ext (by
      match a with
      | ⟨0, _⟩ => show win0_2.index t (0 : Fin 2) * 5000 + 1 * p.val = 5000 * t.val + p.val; omega
      | ⟨1, _⟩ => show win0_2.index t (1 : Fin 2) * 64 + 1 * k.val = k.val; omega))
  have e3 : ∀ k : Fin 64, iblk0 V c 3 t (ix2 j k) = V c main_arg2 (ix2 j k) := fun k => by
    show V c main_arg2 (((cfg0.win 3).blk t).view.emb (ix2 j k)) = V c main_arg2 (ix2 j k)
    exact congrArg (V c main_arg2) (funext fun a => Fin.ext (by
      match a with
      | ⟨0, _⟩ => show win0_3.index t (0 : Fin 2) * 64 + 1 * j.val = j.val; omega
      | ⟨1, _⟩ => show win0_3.index t (1 : Fin 2) * 64 + 1 * k.val = k.val; omega))
  have e4 : iblk0 V c 4 t (ix2 u1 j) = V c main_v17 (ix2 (0 : Fin 1) j) := by
    show V c main_v17 (((cfg0.win 4).blk t).view.emb (ix2 u1 j)) = V c main_v17 (ix2 (0 : Fin 1) j)
    exact congrArg (V c main_v17) (funext fun a => Fin.ext (by
      match a with
      | ⟨0, _⟩ => show win0_4.index t (0 : Fin 2) * 1 + 1 * 0 = 0; omega
      | ⟨1, _⟩ => show win0_4.index t (1 : Fin 2) * 64 + 1 * j.val = j.val; omega))
  have e5 : ∀ k : Fin 64, iblk0 V c 5 t (ix2 j k) = V c main_arg4 (ix2 j k) := fun k => by
    show V c main_arg4 (((cfg0.win 5).blk t).view.emb (ix2 j k)) = V c main_arg4 (ix2 j k)
    exact congrArg (V c main_arg4) (funext fun a => Fin.ext (by
      match a with
      | ⟨0, _⟩ => show win0_5.index t (0 : Fin 2) * 64 + 1 * j.val = j.val; omega
      | ⟨1, _⟩ => show win0_5.index t (1 : Fin 2) * 64 + 1 * k.val = k.val; omega))
  simp only [e0, e1, e2, e3, e4, e5]
  rfl

/-- Every row of the result lies in some point's block: row `r` in block `r / 5000`. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  have ht0 : (i 0).val / 5000 < cfg0.N := by rw [hN]; omega
  refine ⟨⟨(i 0).val / 5000, ht0⟩, flush0_6 _, ?_⟩
  obtain ⟨-, -, -, -, -, -, -, -, -, -, -, -, h60, h61⟩ := idx_facts ⟨(i 0).val / 5000, ht0⟩
  show i ∈ ((View.whole main_v18).slice (win0_6.rect ⟨(i 0).val / 5000, ht0⟩)).set
  rw [View.set_slice_whole, Rect.mem_set_unit]
  intro a
  match a with
  | ⟨0, _⟩ =>
    show win0_6.index ⟨(i 0).val / 5000, ht0⟩ (0 : Fin 2) * 5000 ≤ (i 0).val ∧ (i 0).val < win0_6.index ⟨(i 0).val / 5000, ht0⟩ (0 : Fin 2) * 5000 + 5000
    rw [h60]; show (i 0).val / 5000 * 5000 ≤ (i 0).val ∧ (i 0).val < (i 0).val / 5000 * 5000 + 5000; omega
  | ⟨1, _⟩ =>
    show win0_6.index ⟨(i 0).val / 5000, ht0⟩ (1 : Fin 2) * 64 ≤ (i 1).val ∧ (i 1).val < win0_6.index ⟨(i 0).val / 5000, ht0⟩ (1 : Fin 2) * 64 + 64
    rw [h61]; omega

/-- The result array after the region: `Sage.layerK` of the arrays it was entered with. -/
theorem final (c : Dev nD) : (dat0 V c).arrAt 6 cfg0.N = result V c :=
  (dat0 V c).arrAt_eq_of_cover 6 (result V c) (fun t _ => flushed_eq V c t) (cover)

end Cert.KernelIdeal.Blocks0

end
-- ==== Proof.KBlocks1.lean ====
/-
  The second layer's result array, from its blocks.

  The layer runs on a grid of 20 points; point `t` reads rows `5000 t … 5000 t + 4999` of the aggregated rows, of the
  reciprocal-count column and of the node rows, the whole of both weight tables and of the bias row, and writes back the
  same 5000 rows of the result. Entry `(p, j)` of what it writes is `Sage.entry` of rows `5000 t + p` of the three tall arrays and
  rows `j` of the weights: entry `(5000 t + p, j)` of `Sage.layerK` of the whole arrays. The 20 blocks cover every row
  (row `r` lies in block `r / 5000`), so the array ends holding `Sage.layerK` of the arrays the region is entered with.
-/
import proofs.«400879_j15814069584246_1_alg».proof.Proof.Gen.KernelIdeal.Frame
import proofs.«400879_j15814069584246_1_alg».proof.Proof.KPay
import Idealize.ShloMosaic.Lib.Pipeline.Value

set_option maxRecDepth 16384

noncomputable section

namespace Cert.KernelIdeal.Blocks1

open Cert.KernelIdeal Cert.KernelIdeal.Gen Cert.KernelIdeal.Pay Idealize.ShloMosaic Idealize.ShloMosaic.TcCoe Idealize.SL.Sem
open Idealize.ShloMosaic.ValueIdx Cert.Sage Cert.LibBlockOps
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three tall windows and the result move down one block of rows per point,
    the weights and the bias row stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The result array the region leaves, as a function of the arrays it is entered with. -/
abbrev result (c : Dev nD) : S100000x64.Idx → Elt Ideal .f32 :=
  layerK (V c main_v22) (V c main_v31) (V c main_v18) (V c main_arg5) (V c main_v32) (V c main_arg7)

/-- What point `t` writes back is block `t` of `result`. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x64) hz, View.ld_unit_zero (S := S1x64) hz]
  funext y
  obtain ⟨p, j, rfl⟩ : ∃ (p : Fin 5000) (j : Fin 64), y = ix2 p j := ⟨y 0, y 1, eq_ix2 y⟩
  obtain ⟨h00, h01, h10, h11, h20, h21, h30, h31, h40, h41, h50, h51, h60, h61⟩ := idx_facts t
  have ht : t.val < 20 := lt_of_lt_of_eq t.isLt (show cfg1.N = 20 from N_1)
  have hp : p.val < 5000 := p.isLt
  have hemb : ((cfg1.win 6).blk t).view.emb (ix2 p j) = (ix2 (⟨5000 * t.val + p.val, by omega⟩ : Fin 100000) j : S100000x64.Idx) :=
    funext fun a => Fin.ext (by
      match a with
      | ⟨0, _⟩ => show win1_6.index t (0 : Fin 2) * 5000 + 1 * p.val = 5000 * t.val + p.val; omega
      | ⟨1, _⟩ => show win1_6.index t (1 : Fin 2) * 64 + 1 * j.val = j.val; omega)
  show k1_pay1 (F := Ideal) (iblk1 V c 0 t) (iblk1 V c 1 t) (iblk1 V c 2 t) (iblk1 V c 3 t) (iblk1 V c 5 t) (iblk1 V c 4 t) (ix2 p j)
    = result V c (((cfg1.win 6).blk t).view.emb (ix2 p j))
  rw [hemb]
  refine (pay1_apply (iblk1 V c 0 t) (iblk1 V c 1 t) (iblk1 V c 2 t) (iblk1 V c 3 t) (iblk1 V c 5 t) (iblk1 V c 4 t) p j).trans ?_
  have e0 : ∀ k : Fin 64, iblk1 V c 0 t (ix2 p k) = V c main_v22 (ix2 (⟨5000 * t.val + p.val, by omega⟩ : Fin 100000) k) := fun k => by
    show V c main_v22 (((cfg1.win 0).blk t).view.emb (ix2 p k)) = V c main_v22 (ix2 (⟨5000 * t.val + p.val, by omega⟩ : Fin 100000) k)
    exact congrArg (V c main_v22) (funext fun a => Fin.ext (by
      match a with
      | ⟨0, _⟩ => show win1_0.index t (0 : Fin 2) * 5000 + 1 * p.val = 5000 * t.val + p.val; omega
      | ⟨1, _⟩ => show win1_0.index t (1 : Fin 2) * 64 + 1 * k.val = k.val; omega))
  have e1 : iblk1 V c 1 t (ix2 p u1) = V c main_v31 (ix2 (⟨5000 * t.val + p.val, by omega⟩ : Fin 100000) (0 : Fin 1)) := by
    show V c main_v31 (((cfg1.win 1).blk t).view.emb (ix2 p u1)) = V c main_v31 (ix2 (⟨5000 * t.val + p.val, by omega⟩ : Fin 100000) (0 : Fin 1))
    exact congrArg (V c main_v31) (funext fun a => Fin.ext (by
      match a with
      | ⟨0, _⟩ => show win1_1.index t (0 : Fin 2) * 5000 + 1 * p.val = 5000 * t.val + p.val; omega
      | ⟨1, _⟩ => show win1_1.index t (1 : Fin 2) * 1 + 1 * 0 = 0; omega))
  have e2 : ∀ k : Fin 64, iblk1 V c 2 t (ix2 p k) = V c main_v18 (ix2 (⟨5000 * t.val + p.val, by omega⟩ : Fin 100000) k) := fun k => by
    show V c main_v18 (((cfg1.win 2).blk t).view.emb (ix2 p k)) = V c main_v18 (ix2 (⟨5000 * t.val + p.val, by omega⟩ : Fin 100000) k)
    exact congrArg (V c main_v18) (funext fun a => Fin.ext (by
      match a with
      | ⟨0, _⟩ => show win1_2.index t (0 : Fin 2) * 5000 + 1 * p.val = 5000 * t.val + p.val; omega
      | ⟨1, _⟩ => show win1_2.index t (1 : Fin 2) * 64 + 1 * k.val = k.val; omega))
  have e3 : ∀ k : Fin 64, iblk1 V c 3 t (ix2 j k) = V c main_arg5 (ix2 j k) := fun k => by
    show V c main_arg5 (((cfg1.win 3).blk t).view.emb (ix2 j k)) = V c main_arg5 (ix2 j k)
    exact congrArg (V c main_arg5) (funext fun a => Fin.ext (by
      match a with
      | ⟨0, _⟩ => show win1_3.index t (0 : Fin 2) * 64 + 1 * j.val = j.val; omega
      | ⟨1, _⟩ => show win1_3.index t (1 : Fin 2) * 64 + 1 * k.val = k.val; omega))
  have e4 : iblk1 V c 4 t (ix2 u1 j) = V c main_v32 (ix2 (0 : Fin 1) j) := by
    show V c main_v32 (((cfg1.win 4).blk t).view.emb (ix2 u1 j)) = V c main_v32 (ix2 (0 : Fin 1) j)
    exact congrArg (V c main_v32) (funext fun a => Fin.ext (by
      match a with
      | ⟨0, _⟩ => show win1_4.index t (0 : Fin 2) * 1 + 1 * 0 = 0; omega
      | ⟨1, _⟩ => show win1_4.index t (1 : Fin 2) * 64 + 1 * j.val = j.val; omega))
  have e5 : ∀ k : Fin 64, iblk1 V c 5 t (ix2 j k) = V c main_arg7 (ix2 j k) := fun k => by
    show V c main_arg7 (((cfg1.win 5).blk t).view.emb (ix2 j k)) = V c main_arg7 (ix2 j k)
    exact congrArg (V c main_arg7) (funext fun a => Fin.ext (by
      match a with
      | ⟨0, _⟩ => show win1_5.index t (0 : Fin 2) * 64 + 1 * j.val = j.val; omega
      | ⟨1, _⟩ => show win1_5.index t (1 : Fin 2) * 64 + 1 * k.val = k.val; omega))
  simp only [e0, e1, e2, e3, e4, e5]
  rfl

/-- Every row of the result lies in some point's block: row `r` in block `r / 5000`. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have ht0 : (i 0).val / 5000 < cfg1.N := by rw [hN]; omega
  refine ⟨⟨(i 0).val / 5000, ht0⟩, flush1_6 _, ?_⟩
  obtain ⟨-, -, -, -, -, -, -, -, -, -, -, -, h60, h61⟩ := idx_facts ⟨(i 0).val / 5000, ht0⟩
  show i ∈ ((View.whole main_v33).slice (win1_6.rect ⟨(i 0).val / 5000, ht0⟩)).set
  rw [View.set_slice_whole, Rect.mem_set_unit]
  intro a
  match a with
  | ⟨0, _⟩ =>
    show win1_6.index ⟨(i 0).val / 5000, ht0⟩ (0 : Fin 2) * 5000 ≤ (i 0).val ∧ (i 0).val < win1_6.index ⟨(i 0).val / 5000, ht0⟩ (0 : Fin 2) * 5000 + 5000
    rw [h60]; show (i 0).val / 5000 * 5000 ≤ (i 0).val ∧ (i 0).val < (i 0).val / 5000 * 5000 + 5000; omega
  | ⟨1, _⟩ =>
    show win1_6.index ⟨(i 0).val / 5000, ht0⟩ (1 : Fin 2) * 64 ≤ (i 1).val ∧ (i 1).val < win1_6.index ⟨(i 0).val / 5000, ht0⟩ (1 : Fin 2) * 64 + 64
    rw [h61]; omega

/-- The result array after the region: `Sage.layerK` of the arrays it was entered with. -/
theorem final (c : Dev nD) : (dat1 V c).arrAt 6 cfg1.N = result V c :=
  (dat1 V c).arrAt_eq_of_cover 6 (result V c) (fun t _ => flushed_eq V c t) (cover)

end Cert.KernelIdeal.Blocks1

end
-- ==== Proof.KBlocks2.lean ====
/-
  The classifier's result array, from its blocks.

  The classifier runs on the same grid of 20 points; point `t` reads rows `5000 t … 5000 t + 4999` of the node features, the whole
  class-weight table and the class-bias row, and writes back the same 5000 rows of logits. Entry `(p, j)` of what it
  writes is `Sage.logit` of feature row `5000 t + p` and weight row `j`: entry `(5000 t + p, j)` of `Sage.classifyK` of the whole
  arrays. The 20 blocks cover every row, so the array ends holding `Sage.classifyK` of the arrays the region is entered with.
-/
import proofs.«400879_j15814069584246_1_alg».proof.Proof.Gen.KernelIdeal.Frame
import proofs.«400879_j15814069584246_1_alg».proof.Proof.KPay
import Idealize.ShloMosaic.Lib.Pipeline.Value

set_option maxRecDepth 16384

noncomputable section

namespace Cert.KernelIdeal.Blocks2

open Cert.KernelIdeal Cert.KernelIdeal.Gen Cert.KernelIdeal.Pay Idealize.ShloMosaic Idealize.ShloMosaic.TcCoe Idealize.SL.Sem
open Idealize.ShloMosaic.ValueIdx Cert.Sage Cert.LibBlockOps
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature window and the result move down one block of rows per point, the
    class weights and the bias row stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The logits the region leaves, as a function of the arrays it is entered with. -/
abbrev result (c : Dev nD) : S100000x40.Idx → Elt Ideal .f32 :=
  classifyK (V c main_v33) (V c main_arg8) (V c main_v34)

/-- What point `t` writes back is block `t` of `result`. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S5000x64) hz, View.ld_unit_zero (S := S40x64) hz, View.ld_unit_zero (S := S1x40) hz]
  funext y
  obtain ⟨p, j, rfl⟩ : ∃ (p : Fin 5000) (j : Fin 40), y = ix2 p j := ⟨y 0, y 1, eq_ix2 y⟩
  obtain ⟨h00, h01, h10, h11, h20, h21, h30, h31⟩ := idx_facts t
  have ht : t.val < 20 := lt_of_lt_of_eq t.isLt (show cfg2.N = 20 from N_2)
  have hp : p.val < 5000 := p.isLt
  have hemb : ((cfg2.win 3).blk t).view.emb (ix2 p j) = (ix2 (⟨5000 * t.val + p.val, by omega⟩ : Fin 100000) j : S100000x40.Idx) :=
    funext fun a => Fin.ext (by
      match a with
      | ⟨0, _⟩ => show win2_3.index t (0 : Fin 2) * 5000 + 1 * p.val = 5000 * t.val + p.val; omega
      | ⟨1, _⟩ => show win2_3.index t (1 : Fin 2) * 40 + 1 * j.val = j.val; omega)
  show k2_pay1 (F := Ideal) (iblk2 V c 0 t) (iblk2 V c 1 t) (iblk2 V c 2 t) (ix2 p j)
    = result V c (((cfg2.win 3).blk t).view.emb (ix2 p j))
  rw [hemb]
  refine (pay2_apply (iblk2 V c 0 t) (iblk2 V c 1 t) (iblk2 V c 2 t) p j).trans ?_
  have e0 : ∀ k : Fin 64, iblk2 V c 0 t (ix2 p k) = V c main_v33 (ix2 (⟨5000 * t.val + p.val, by omega⟩ : Fin 100000) k) := fun k => by
    show V c main_v33 (((cfg2.win 0).blk t).view.emb (ix2 p k)) = V c main_v33 (ix2 (⟨5000 * t.val + p.val, by omega⟩ : Fin 100000) k)
    exact congrArg (V c main_v33) (funext fun a => Fin.ext (by
      match a with
      | ⟨0, _⟩ => show win2_0.index t (0 : Fin 2) * 5000 + 1 * p.val = 5000 * t.val + p.val; omega
      | ⟨1, _⟩ => show win2_0.index t (1 : Fin 2) * 64 + 1 * k.val = k.val; omega))
  have e1 : ∀ k : Fin 64, iblk2 V c 1 t (ix2 j k) = V c main_arg8 (ix2 j k) := fun k => by
    show V c main_arg8 (((cfg2.win 1).blk t).view.emb (ix2 j k)) = V c main_arg8 (ix2 j k)
    exact congrArg (V c main_arg8) (funext fun a => Fin.ext (by
      match a with
      | ⟨0, _⟩ => show win2_1.index t (0 : Fin 2) * 40 + 1 * j.val = j.val; omega
      | ⟨1, _⟩ => show win2_1.index t (1 : Fin 2) * 64 + 1 * k.val = k.val; omega))
  have e2 : iblk2 V c 2 t (ix2 u1 j) = V c main_v34 (ix2 (0 : Fin 1) j) := by
    show V c main_v34 (((cfg2.win 2).blk t).view.emb (ix2 u1 j)) = V c main_v34 (ix2 (0 : Fin 1) j)
    exact congrArg (V c main_v34) (funext fun a => Fin.ext (by
      match a with
      | ⟨0, _⟩ => show win2_2.index t (0 : Fin 2) * 1 + 1 * 0 = 0; omega
      | ⟨1, _⟩ => show win2_2.index t (1 : Fin 2) * 40 + 1 * j.val = j.val; omega))
  simp only [e0, e1, e2]
  rfl

/-- Every row of the result lies in some point's block: row `r` in block `r / 5000`. -/
theorem cover (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 20 := N_2
  have ht0 : (i 0).val / 5000 < cfg2.N := by rw [hN]; omega
  refine ⟨⟨(i 0).val / 5000, ht0⟩, flush2_3 _, ?_⟩
  obtain ⟨-, -, -, -, -, -, h30, h31⟩ := idx_facts ⟨(i 0).val / 5000, ht0⟩
  show i ∈ ((View.whole main_v35).slice (win2_3.rect ⟨(i 0).val / 5000, ht0⟩)).set
  rw [View.set_slice_whole, Rect.mem_set_unit]
  intro a
  match a with
  | ⟨0, _⟩ =>
    show win2_3.index ⟨(i 0).val / 5000, ht0⟩ (0 : Fin 2) * 5000 ≤ (i 0).val ∧ (i 0).val < win2_3.index ⟨(i 0).val / 5000, ht0⟩ (0 : Fin 2) * 5000 + 5000
    rw [h30]; show (i 0).val / 5000 * 5000 ≤ (i 0).val ∧ (i 0).val < (i 0).val / 5000 * 5000 + 5000; omega
  | ⟨1, _⟩ =>
    show win2_3.index ⟨(i 0).val / 5000, ht0⟩ (1 : Fin 2) * 40 ≤ (i 1).val ∧ (i 1).val < win2_3.index ⟨(i 0).val / 5000, ht0⟩ (1 : Fin 2) * 40 + 40
    rw [h31]; omega

/-- The logits after the region: `Sage.classifyK` of the arrays it was entered with. -/
theorem final (c : Dev nD) : (dat2 V c).arrAt 3 cfg2.N = result V c :=
  (dat2 V c).arrAt_eq_of_cover 3 (result V c) (fun t _ => flushed_eq V c t) (cover)

end Cert.KernelIdeal.Blocks2

end
-- ==== Proof.KValue.lean ====
/-
  The kernel's result, as one function of the launch arrays.

  The program is: split the edge table; aggregate the input rows over the edges and count them; layer one on the blocks;
  aggregate layer one's result the same way; layer two; the classifier. Each region's result array is the whole-array
  function of the arrays it is entered with (from its blocks), and each of those arrays is what the host operations
  before it made of the launch arrays and of the previous region's result; the buffers a stretch or a region does not write
  come through unchanged. So the result is `classifyK (h2) Wc bc` with `h2 = layerK (agg h1) inv h1 …` and
  `h1 = layerK (agg x) inv x …`.
-/
import proofs.«400879_j15814069584246_1_alg».proof.Proof.Gen.KernelIdeal.Frame
import proofs.«400879_j15814069584246_1_alg».proof.Proof.KRun
import proofs.«400879_j15814069584246_1_alg».proof.Proof.KHost
import proofs.«400879_j15814069584246_1_alg».proof.Proof.KBlocks0
import proofs.«400879_j15814069584246_1_alg».proof.Proof.KBlocks1
import proofs.«400879_j15814069584246_1_alg».proof.Proof.KBlocks2

set_option maxRecDepth 16384

noncomputable section

namespace Cert.KernelIdeal.Net

open Cert.KernelIdeal Cert.KernelIdeal.Gen Cert.KernelIdeal.Host Idealize.ShloMosaic Idealize.ShloMosaic.TcCoe Idealize.SL.Sem
open Idealize.ShloMosaic.StableHlo Cert.Sage

variable (m : (ℓ : Loc nD τ sig) → Buf (Elt Ideal) ℓ) (ρ : Dev nD → PrngReg)

/-- The source and destination nodes of the edges, from the launch edge table. -/
abbrev src (c : Dev nD) : IVec S1600000 32 := srcOf (m ((c.tc : Thread nD τ).loc main_arg1))
abbrev dst (c : Dev nD) : IVec S1600000 32 := dstOf (m ((c.tc : Thread nD τ).loc main_arg1))

/-- Layer one's result. -/
def h1 (c : Dev nD) : S100000x64.Idx → Elt Ideal .f32 :=
  layerK (aggOf (F := Ideal) (m ((c.tc : Thread nD τ).loc main_arg0)) (src m c) (dst m c)) (invOf (F := Ideal) (dst m c)) (m ((c.tc : Thread nD τ).loc main_arg0))
    (m ((c.tc : Thread nD τ).loc main_arg2)) (rowOf (F := Ideal) (m ((c.tc : Thread nD τ).loc main_arg3))) (m ((c.tc : Thread nD τ).loc main_arg4))

/-- Layer two's result. -/
def h2 (c : Dev nD) : S100000x64.Idx → Elt Ideal .f32 :=
  layerK (aggOf (F := Ideal) (h1 m c) (src m c) (dst m c)) (invOf (F := Ideal) (dst m c)) (h1 m c)
    (m ((c.tc : Thread nD τ).loc main_arg5)) (rowOf (F := Ideal) (m ((c.tc : Thread nD τ).loc main_arg6))) (m ((c.tc : Thread nD τ).loc main_arg7))

/-- The logits. -/
def out (c : Dev nD) : S100000x40.Idx → Elt Ideal .f32 :=
  classifyK (h2 m c) (m ((c.tc : Thread nD τ).loc main_arg8)) (rowOf40 (F := Ideal) (m ((c.tc : Thread nD τ).loc main_arg9)))

/-! ## The launch arrays reach the regions unchanged -/

theorem launch3_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  rw [kept_hostOps0_2_main_arg0, kept_hostOps0_1_main_arg0, kept_hostOps0_main_arg0]
theorem launch3_arg2 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  rw [kept_hostOps0_2_main_arg2, kept_hostOps0_1_main_arg2, kept_hostOps0_main_arg2]
theorem launch3_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  rw [kept_hostOps0_2_main_arg4, kept_hostOps0_1_main_arg4, kept_hostOps0_main_arg4]
theorem launch3_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  rw [kept_hostOps0_2_main_arg5, kept_hostOps0_1_main_arg5, kept_hostOps0_main_arg5]
theorem launch3_arg6 (c : Dev nD) : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  rw [kept_hostOps0_2_main_arg6, kept_hostOps0_1_main_arg6, kept_hostOps0_main_arg6]
theorem launch3_arg7 (c : Dev nD) : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  rw [kept_hostOps0_2_main_arg7, kept_hostOps0_1_main_arg7, kept_hostOps0_main_arg7]
theorem launch3_arg8 (c : Dev nD) : W3 m ρ c (Proc.devRef .tc main_arg8) = m ((c.tc : Thread nD τ).loc main_arg8) := by
  show StableHlo.after hostOps0_2 (StableHlo.after hostOps0_1 (StableHlo.after hostOps0 (W0 m ρ c))) (Proc.devRef .tc main_arg8) = _
  rw [kept_hostOps0_2_main_arg8, kept_hostOps0_1_main_arg8, kept_hostOps0_main_arg8]
theorem launch3_arg9 (c : Dev nD) : W3 m ρ c (Proc.devRef .tc main_arg9) = m ((c.tc : Thread nD τ).loc main_arg9) := by
  show StableHlo.after hostOps0_2 (StableHlo.after hostOps0_1 (StableHlo.after hostOps0 (W0 m ρ c))) (Proc.devRef .tc main_arg9) = _
  rw [kept_hostOps0_2_main_arg9, kept_hostOps0_1_main_arg9, kept_hostOps0_main_arg9]
theorem launch4_arg5 (c : Dev nD) : W4 m ρ c (Proc.devRef .tc main_arg5) = m ((c.tc : Thread nD τ).loc main_arg5) :=
  (W4_of_ne m ρ c main_arg5 (by decide)).trans (launch3_arg5 m ρ c)
theorem launch4_arg6 (c : Dev nD) : W4 m ρ c (Proc.devRef .tc main_arg6) = m ((c.tc : Thread nD τ).loc main_arg6) :=
  (W4_of_ne m ρ c main_arg6 (by decide)).trans (launch3_arg6 m ρ c)
theorem launch4_arg7 (c : Dev nD) : W4 m ρ c (Proc.devRef .tc main_arg7) = m ((c.tc : Thread nD τ).loc main_arg7) :=
  (W4_of_ne m ρ c main_arg7 (by decide)).trans (launch3_arg7 m ρ c)
theorem launch4_arg8 (c : Dev nD) : W4 m ρ c (Proc.devRef .tc main_arg8) = m ((c.tc : Thread nD τ).loc main_arg8) :=
  (W4_of_ne m ρ c main_arg8 (by decide)).trans (launch3_arg8 m ρ c)
theorem launch4_arg9 (c : Dev nD) : W4 m ρ c (Proc.devRef .tc main_arg9) = m ((c.tc : Thread nD τ).loc main_arg9) :=
  (W4_of_ne m ρ c main_arg9 (by decide)).trans (launch3_arg9 m ρ c)

theorem src3 (c : Dev nD) : W3 m ρ c (Proc.devRef .tc main_v1) = src m c := by
  show StableHlo.after hostOps0_2 (StableHlo.after hostOps0_1 (StableHlo.after hostOps0 (W0 m ρ c))) (Proc.devRef .tc main_v1) = _
  rw [kept_hostOps0_2_main_v1, kept_hostOps0_1_main_v1, split_src]
theorem dst3 (c : Dev nD) : W3 m ρ c (Proc.devRef .tc main_v3) = dst m c := by
  show StableHlo.after hostOps0_2 (StableHlo.after hostOps0_1 (StableHlo.after hostOps0 (W0 m ρ c))) (Proc.devRef .tc main_v3) = _
  rw [kept_hostOps0_2_main_v3, kept_hostOps0_1_main_v3, split_dst]
theorem src4 (c : Dev nD) : W4 m ρ c (Proc.devRef .tc main_v1) = src m c :=
  (W4_of_ne m ρ c main_v1 (by decide)).trans (src3 m ρ c)
theorem dst4 (c : Dev nD) : W4 m ρ c (Proc.devRef .tc main_v3) = dst m c :=
  (W4_of_ne m ρ c main_v3 (by decide)).trans (dst3 m ρ c)

/-! ## Layer one -/

theorem in0_agg (c : Dev nD) : V3 m ρ c main_v7 = aggOf (F := Ideal) (m ((c.tc : Thread nD τ).loc main_arg0)) (src m c) (dst m c) := by
  show StableHlo.after hostOps0_2 (StableHlo.after hostOps0_1 (StableHlo.after hostOps0 (W0 m ρ c))) (Proc.devRef .tc main_v7) = _
  rw [agg0, kept_hostOps0_main_arg0, split_src, split_dst]
theorem in0_inv (c : Dev nD) : V3 m ρ c main_v16 = invOf (F := Ideal) (dst m c) := by
  show StableHlo.after hostOps0_2 (StableHlo.after hostOps0_1 (StableHlo.after hostOps0 (W0 m ρ c))) (Proc.devRef .tc main_v16) = _
  rw [inv0, kept_hostOps0_1_main_v3, split_dst]
theorem in0_row (c : Dev nD) : V3 m ρ c main_v17 = rowOf (F := Ideal) (m ((c.tc : Thread nD τ).loc main_arg3)) := by
  show StableHlo.after hostOps0_2 (StableHlo.after hostOps0_1 (StableHlo.after hostOps0 (W0 m ρ c))) (Proc.devRef .tc main_v17) = _
  rw [row0, kept_hostOps0_1_main_arg3, kept_hostOps0_main_arg3]

/-- Region 0 leaves layer one's result. -/
theorem out0 (c : Dev nD) : W4 m ρ c (Proc.devRef .tc main_v18) = h1 m c := by
  refine (W4_arr m ρ c 6).trans ?_
  rw [Blocks0.final (V3 m ρ) c]
  show layerK (V3 m ρ c main_v7) (V3 m ρ c main_v16) (V3 m ρ c main_arg0) (V3 m ρ c main_arg2) (V3 m ρ c main_v17) (V3 m ρ c main_arg4) = _
  rw [in0_agg, in0_inv, in0_row, show V3 m ρ c main_arg0 = _ from launch3_arg0 m ρ c, show V3 m ρ c main_arg2 = _ from launch3_arg2 m ρ c,
    show V3 m ρ c main_arg4 = _ from launch3_arg4 m ρ c]
  rfl

/-! ## Layer two -/

theorem in1_agg (c : Dev nD) : V6 m ρ c main_v22 = aggOf (F := Ideal) (h1 m c) (src m c) (dst m c) := by
  show StableHlo.after hostOps1_1 (StableHlo.after hostOps1 (W4 m ρ c)) (Proc.devRef .tc main_v22) = _
  rw [agg1, out0, src4, dst4]
theorem in1_inv (c : Dev nD) : V6 m ρ c main_v31 = invOf (F := Ideal) (dst m c) := by
  show StableHlo.after hostOps1_1 (StableHlo.after hostOps1 (W4 m ρ c)) (Proc.devRef .tc main_v31) = _
  rw [inv1, kept_hostOps1_main_v3, dst4]
theorem in1_row (c : Dev nD) : V6 m ρ c main_v32 = rowOf (F := Ideal) (m ((c.tc : Thread nD τ).loc main_arg6)) := by
  show StableHlo.after hostOps1_1 (StableHlo.after hostOps1 (W4 m ρ c)) (Proc.devRef .tc main_v32) = _
  rw [row1, kept_hostOps1_main_arg6, launch4_arg6]
theorem in1_feat (c : Dev nD) : V6 m ρ c main_v18 = h1 m c := by
  show StableHlo.after hostOps1_1 (StableHlo.after hostOps1 (W4 m ρ c)) (Proc.devRef .tc main_v18) = _
  rw [kept_hostOps1_1_main_v18, kept_hostOps1_main_v18, out0]
theorem in1_wl (c : Dev nD) : V6 m ρ c main_arg5 = m ((c.tc : Thread nD τ).loc main_arg5) := by
  show StableHlo.after hostOps1_1 (StableHlo.after hostOps1 (W4 m ρ c)) (Proc.devRef .tc main_arg5) = _
  rw [kept_hostOps1_1_main_arg5, kept_hostOps1_main_arg5, launch4_arg5]
theorem in1_wr (c : Dev nD) : V6 m ρ c main_arg7 = m ((c.tc : Thread nD τ).loc main_arg7) := by
  show StableHlo.after hostOps1_1 (StableHlo.after hostOps1 (W4 m ρ c)) (Proc.devRef .tc main_arg7) = _
  rw [kept_hostOps1_1_main_arg7, kept_hostOps1_main_arg7, launch4_arg7]
theorem launch6_arg8 (c : Dev nD) : W6 m ρ c (Proc.devRef .tc main_arg8) = m ((c.tc : Thread nD τ).loc main_arg8) := by
  show StableHlo.after hostOps1_1 (StableHlo.after hostOps1 (W4 m ρ c)) (Proc.devRef .tc main_arg8) = _
  rw [kept_hostOps1_1_main_arg8, kept_hostOps1_main_arg8, launch4_arg8]
theorem launch6_arg9 (c : Dev nD) : W6 m ρ c (Proc.devRef .tc main_arg9) = m ((c.tc : Thread nD τ).loc main_arg9) := by
  show StableHlo.after hostOps1_1 (StableHlo.after hostOps1 (W4 m ρ c)) (Proc.devRef .tc main_arg9) = _
  rw [kept_hostOps1_1_main_arg9, kept_hostOps1_main_arg9, launch4_arg9]

/-- Region 1 leaves layer two's result. -/
theorem out1 (c : Dev nD) : W7 m ρ c (Proc.devRef .tc main_v33) = h2 m c := by
  refine (W7_arr m ρ c 6).trans ?_
  rw [Blocks1.final (V6 m ρ) c]
  show layerK (V6 m ρ c main_v22) (V6 m ρ c main_v31) (V6 m ρ c main_v18) (V6 m ρ c main_arg5) (V6 m ρ c main_v32) (V6 m ρ c main_arg7) = _
  rw [in1_agg, in1_inv, in1_row, in1_feat, in1_wl, in1_wr]
  rfl

/-! ## The classifier -/

theorem in2_feat (c : Dev nD) : V8 m ρ c main_v33 = h2 m c := by
  show StableHlo.after hostOps2 (W7 m ρ c) (Proc.devRef .tc main_v33) = _
  rw [kept_hostOps2_main_v33, out1]
theorem in2_w (c : Dev nD) : V8 m ρ c main_arg8 = m ((c.tc : Thread nD τ).loc main_arg8) := by
  show StableHlo.after hostOps2 (W7 m ρ c) (Proc.devRef .tc main_arg8) = _
  rw [kept_hostOps2_main_arg8, W7_of_ne m ρ c main_arg8 (by decide), launch6_arg8]
theorem in2_row (c : Dev nD) : V8 m ρ c main_v34 = rowOf40 (F := Ideal) (m ((c.tc : Thread nD τ).loc main_arg9)) := by
  show StableHlo.after hostOps2 (W7 m ρ c) (Proc.devRef .tc main_v34) = _
  rw [row2, W7_of_ne m ρ c main_arg9 (by decide), launch6_arg9]

/-- Region 2 leaves the logits. -/
theorem result_eq (c : Dev nD) : W9 m ρ c (Proc.devRef .tc main_v35) = out m c := by
  refine (W9_arr m ρ c 3).trans ?_
  rw [Blocks2.final (V8 m ρ) c]
  show classifyK (V8 m ρ c main_v33) (V8 m ρ c main_arg8) (V8 m ρ c main_v34) = _
  rw [in2_feat, in2_w, in2_row]
  rfl

/-- THE RUN, READ: every weakly fair execution of the kernel's program terminates, nothing faulting, with the result array
    at `out` of the launch arrays and the argument arrays as launched. -/
theorem run : θ_run defs (onTc (τ := τ) (main (F := Ideal))) ⟨m, fun _ => 0, ρ⟩ (fun r => ∀ c : Dev nD,
      r.2.mem ((c.tc : Thread nD τ).loc main_v35) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩)
    (Cert.KernelIdeal.RunValue.run_result (F := Ideal) m ρ)

end Cert.KernelIdeal.Net

end
-- ==== Proof.KMask.lean ====
/-
  Under the precondition every edge's source index is in range, so no message is the fill value.

  The precondition's last conjunct says of every entry `w` of row 0 of the edge table: after normalising a negative index
  (`w + 100000` when `w < 0`) it lies in `[0, 99999]`. The gather's mask is the same test, per edge, reduced over an axis of
  extent one from the constant true: so the mask is true at every edge, and the select that chooses between the gathered
  row and the fill value returns the gathered row.
-/
import proofs.«400879_j15814069584246_1_alg».proof.Defs
import proofs.«400879_j15814069584246_1_alg».proof.Proof.Gen.Pre_finite_inputs
import proofs.«400879_j15814069584246_1_alg».proof.Proof.KHostDefs
import Idealize.ShloMosaic.Lib.ReduceAll
import Idealize.ShloMosaic.Lib.ValueIdx

noncomputable section

namespace Cert.KernelIdeal.Mask

open Cert.KernelIdeal Cert.KernelIdeal.Gen Cert.KernelIdeal.Host Idealize.ShloMosaic Idealize.ShloMosaic.TcCoe Idealize.SL.Sem
open Idealize.ShloMosaic.ValueIdx

/-- A source index normalised: a negative one counts from the end of the 100000 rows. -/
def nrm (w : BitVec 32) : BitVec 32 := Scalar.select (IntOp.cmpi .slt w 0#32) (IntOp.addi w 100000#32) w

/-- The range test of one source index: normalised, it lies in `[0, 99999]`. -/
def okWord (w : BitVec 32) : BitVec 1 := IntOp.andi (IntOp.cmpi .sge (nrm w) 0#32) (IntOp.cmpi .sle (nrm w) 99999#32)

instance : Subsingleton S_.Idx := ⟨fun a b => funext fun d => d.elim0⟩

/-- A fold by `and` from true over entries that are all true is true. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..)]
    exact ih fun n hn => hf n (List.mem_cons_of_mem _ hn)

variable (m : (ℓ : Loc nD τ sig) → Buf (Elt Ideal) ℓ)

/-- THE PRECONDITION DECODED at an edge: its source index passes the range test. -/
theorem pre_edge (h : Cert.Pre_KernelIdeal m) (c : Dev nD) (e : S1600000.Idx) :
    okWord (srcOf (m ((c.tc : Thread nD τ).loc main_arg1)) e) = 1#1 := by
  have h0 := congrFun (h c) ix0
  unfold Cert.Pre_finite_inputs.fn Cert.Pre_finite_inputs.fn_part1 Cert.Pre_finite_inputs.fn_part2 Cert.Pre_finite_inputs.fn_part3 at h0
  have hB := (IntOp.andi_eq_one.1 (show IntOp.andi _ _ = 1#1 from h0)).2
  exact Host.reduce_andi_all _ _ _ _ _ hB e

/-- Where every source index passes the range test the gather's mask is true at every edge. -/
theorem inRange_all (s : IVec S1600000 32) (hs : ∀ e, okWord (s e) = 1#1) : inRange s = fun _ => 1#1 := by
  funext e
  unfold inRange maskOf
  rw [Host.reduce_eq_foldl]
  exact foldl_andi_ones _ _ fun i _ => hs _

/-- So the messages are the gathered rows. -/
theorem msgsOf_eq (f : FVec Ideal S100000x64 .f32) (s : IVec S1600000 32) (hs : ∀ e, okWord (s e) = 1#1) :
    msgsOf f s = rowsOf f s := by
  funext i
  unfold msgsOf
  rw [select_apply, inRange_all s hs]
  exact select_one _ _

end Cert.KernelIdeal.Mask

end
-- ==== Proof.RefValue.lean ====
/-
  The reference's result, stage by stage, as the same functions.

  The reference divides the aggregated rows by the clipped counts, multiplies by the transposed weight tables on the host
  (each product a sum over the 64 contracted coordinates), adds the bias row to every row, and clips below at zero; the
  classifier is one more product plus its bias. Read at node `r` and feature `j` a transposed table at `(k, j)` is the table at
  `(j, k)` and a broadcast bias is the bias at `j`, so each stage is `Sage.layer` (the quotient taken inside the sum, which for a
  divisor that is not zero is the product with the reciprocal) and `Sage.classify`. A count clipped below at one is not zero.
-/
import proofs.«400879_j15814069584246_1_alg».proof.Proof.Gen.ReferenceIdeal.Run
import proofs.«400879_j15814069584246_1_alg».proof.Proof.Gen.ReferenceIdeal.Read
import proofs.«400879_j15814069584246_1_alg».proof.Proof.Spec
import Idealize.ShloMosaic.Lib.ValueIdx
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.Sage

/-- Layer one: the first `relu`'s result. -/
theorem ref_layer1 (x0 : FVec Ideal S100000x64 .f32) (x1 : IVec S2x1600000 32) (x2 : FVec Ideal S64x64 .f32) (x3 : FVec Ideal S64 .f32) (x4 : FVec Ideal S64x64 .f32) :
    val_main_v31 (F := Ideal) x0 x1 x2 x3 x4 = layer (val_main_v13 (F := Ideal) x0 x1) (val_main_v19 (F := Ideal) x1) x0 x2 x3 x4 := by
  funext i
  obtain ⟨r, j, rfl⟩ : ∃ (r : Fin 100000) (j : Fin 64), i = ix2 r j := ⟨i 0, i 1, eq_ix2 i⟩
  rw [val_main_v31_apply, val_main_call0_v0_apply, val_main_call0_cst_apply, val_main_v30_apply, val_main_v27_apply, val_main_v24_apply, val_main_v29_apply, val_main_v26_apply, val_main_v25_apply]
  have hc : val_main_v19 (F := Ideal) x1 (ix1 r) ≠ 0 := by
    rw [val_main_v19_apply, val_main_v18_apply, val_main_cst_3_apply]
    show max _ (Ideal.ofBits .f32 0x3F800000#32) ≠ 0
    rw [Ideal.ofBits_one_f32]; exact max_one_ne_zero _
  have s1 : (∑ k : Fin 64, val_main_v22 (F := Ideal) x0 x1 (lidx_main_v24 (ix2 r j) k) * val_main_v23 (F := Ideal) x2 (ridx_main_v24 (ix2 r j) k))
      = ∑ k : Fin 64, Ideal.div (val_main_v13 (F := Ideal) x0 x1 (ix2 r k)) (val_main_v19 (F := Ideal) x1 (ix1 r)) * x2 (ix2 j k) :=
    Finset.sum_congr rfl fun k _ => by
      rw [show lidx_main_v24 (ix2 r j) k = ix2 r k from funext fun a => Fin.ext (by match a with | ⟨0, _⟩ => rfl | ⟨1, _⟩ => rfl), val_main_v22_apply, val_main_v21_apply, val_main_v20_apply,
        show idx_main_v20 (idx_main_v21 (ix2 r k)) = ix1 r from funext fun a => Fin.ext (by match a with | ⟨0, _⟩ => rfl), val_main_v23_apply,
        show idx_main_v23 (ridx_main_v24 (ix2 r j) k) = ix2 j k from funext fun a => Fin.ext (by match a with | ⟨0, _⟩ => rfl | ⟨1, _⟩ => rfl)]
      rfl
  have s2 : (∑ k : Fin 64, x0 (lidx_main_v29 (ix2 r j) k) * val_main_v28 (F := Ideal) x4 (ridx_main_v29 (ix2 r j) k))
      = ∑ k : Fin 64, x0 (ix2 r k) * x4 (ix2 j k) :=
    Finset.sum_congr rfl fun k _ => by
      rw [show lidx_main_v29 (ix2 r j) k = ix2 r k from funext fun a => Fin.ext (by match a with | ⟨0, _⟩ => rfl | ⟨1, _⟩ => rfl), val_main_v28_apply,
        show idx_main_v28 (ridx_main_v29 (ix2 r j) k) = ix2 j k from funext fun a => Fin.ext (by match a with | ⟨0, _⟩ => rfl | ⟨1, _⟩ => rfl)]
  rw [s1, s2, show idx_main_v25 (idx_main_v26 (ix2 r j)) = ix1 j from funext fun a => Fin.ext (by match a with | ⟨0, _⟩ => rfl)]
  show max ((_ + _) + _) (Ideal.ofBits .f32 0x00000000#32) = _
  rw [Ideal.ofBits_zero_f32]
  exact layer_of_div _ _ _ _ _ _ r j hc

/-- Layer two: the second `relu`'s result, of layer one's. -/
theorem ref_layer2 (x0 : FVec Ideal S100000x64 .f32) (x1 : IVec S2x1600000 32) (x2 : FVec Ideal S64x64 .f32) (x3 : FVec Ideal S64 .f32) (x4 : FVec Ideal S64x64 .f32) (x5 : FVec Ideal S64x64 .f32) (x6 : FVec Ideal S64 .f32) (x7 : FVec Ideal S64x64 .f32) :
    val_main_v59 (F := Ideal) x0 x1 x2 x3 x4 x5 x6 x7
      = layer (val_main_v41 (F := Ideal) x0 x1 x2 x3 x4) (val_main_v47 (F := Ideal) x1) (val_main_v31 (F := Ideal) x0 x1 x2 x3 x4) x5 x6 x7 := by
  funext i
  obtain ⟨r, j, rfl⟩ : ∃ (r : Fin 100000) (j : Fin 64), i = ix2 r j := ⟨i 0, i 1, eq_ix2 i⟩
  rw [val_main_v59_apply, val_main_call1_v0_apply, val_main_call1_cst_apply, val_main_v58_apply, val_main_v55_apply, val_main_v52_apply, val_main_v57_apply, val_main_v54_apply, val_main_v53_apply]
  have hc : val_main_v47 (F := Ideal) x1 (ix1 r) ≠ 0 := by
    rw [val_main_v47_apply, val_main_v46_apply, val_main_cst_9_apply]
    show max _ (Ideal.ofBits .f32 0x3F800000#32) ≠ 0
    rw [Ideal.ofBits_one_f32]; exact max_one_ne_zero _
  have s1 : (∑ k : Fin 64, val_main_v50 (F := Ideal) x0 x1 x2 x3 x4 (lidx_main_v52 (ix2 r j) k) * val_main_v51 (F := Ideal) x5 (ridx_main_v52 (ix2 r j) k))
      = ∑ k : Fin 64, Ideal.div (val_main_v41 (F := Ideal) x0 x1 x2 x3 x4 (ix2 r k)) (val_main_v47 (F := Ideal) x1 (ix1 r)) * x5 (ix2 j k) :=
    Finset.sum_congr rfl fun k _ => by
      rw [show lidx_main_v52 (ix2 r j) k = ix2 r k from funext fun a => Fin.ext (by match a with | ⟨0, _⟩ => rfl | ⟨1, _⟩ => rfl), val_main_v50_apply, val_main_v49_apply, val_main_v48_apply,
        show idx_main_v48 (idx_main_v49 (ix2 r k)) = ix1 r from funext fun a => Fin.ext (by match a with | ⟨0, _⟩ => rfl), val_main_v51_apply,
        show idx_main_v51 (ridx_main_v52 (ix2 r j) k) = ix2 j k from funext fun a => Fin.ext (by match a with | ⟨0, _⟩ => rfl | ⟨1, _⟩ => rfl)]
      rfl
  have s2 : (∑ k : Fin 64, val_main_v31 (F := Ideal) x0 x1 x2 x3 x4 (lidx_main_v57 (ix2 r j) k) * val_main_v56 (F := Ideal) x7 (ridx_main_v57 (ix2 r j) k))
      = ∑ k : Fin 64, val_main_v31 (F := Ideal) x0 x1 x2 x3 x4 (ix2 r k) * x7 (ix2 j k) :=
    Finset.sum_congr rfl fun k _ => by
      rw [show lidx_main_v57 (ix2 r j) k = ix2 r k from funext fun a => Fin.ext (by match a with | ⟨0, _⟩ => rfl | ⟨1, _⟩ => rfl), val_main_v56_apply,
        show idx_main_v56 (ridx_main_v57 (ix2 r j) k) = ix2 j k from funext fun a => Fin.ext (by match a with | ⟨0, _⟩ => rfl | ⟨1, _⟩ => rfl)]
  rw [s1, s2, show idx_main_v53 (idx_main_v54 (ix2 r j)) = ix1 j from funext fun a => Fin.ext (by match a with | ⟨0, _⟩ => rfl)]
  show max ((_ + _) + _) (Ideal.ofBits .f32 0x00000000#32) = _
  rw [Ideal.ofBits_zero_f32]
  exact layer_of_div _ _ _ _ _ _ r j hc

/-- The logits, of layer two's result. -/
theorem ref_classify (x0 : FVec Ideal S100000x64 .f32) (x1 : IVec S2x1600000 32) (x2 : FVec Ideal S64x64 .f32) (x3 : FVec Ideal S64 .f32) (x4 : FVec Ideal S64x64 .f32) (x5 : FVec Ideal S64x64 .f32) (x6 : FVec Ideal S64 .f32) (x7 : FVec Ideal S64x64 .f32) (x8 : FVec Ideal S40x64 .f32) (x9 : FVec Ideal S40 .f32) :
    val_main_v64 (F := Ideal) x0 x1 x2 x3 x4 x5 x6 x7 x8 x9 = classify (val_main_v59 (F := Ideal) x0 x1 x2 x3 x4 x5 x6 x7) x8 x9 := by
  funext i
  obtain ⟨r, j, rfl⟩ : ∃ (r : Fin 100000) (j : Fin 40), i = ix2 r j := ⟨i 0, i 1, eq_ix2 i⟩
  rw [val_main_v64_apply, val_main_v61_apply, val_main_v63_apply, val_main_v62_apply, classify_apply]
  have s1 : (∑ k : Fin 64, val_main_v59 (F := Ideal) x0 x1 x2 x3 x4 x5 x6 x7 (lidx_main_v61 (ix2 r j) k) * val_main_v60 (F := Ideal) x8 (ridx_main_v61 (ix2 r j) k))
      = ∑ k : Fin 64, val_main_v59 (F := Ideal) x0 x1 x2 x3 x4 x5 x6 x7 (ix2 r k) * x8 (ix2 j k) :=
    Finset.sum_congr rfl fun k _ => by
      rw [show lidx_main_v61 (ix2 r j) k = ix2 r k from funext fun a => Fin.ext (by match a with | ⟨0, _⟩ => rfl | ⟨1, _⟩ => rfl), val_main_v60_apply,
        show idx_main_v60 (ridx_main_v61 (ix2 r j) k) = ix2 j k from funext fun a => Fin.ext (by match a with | ⟨0, _⟩ => rfl | ⟨1, _⟩ => rfl)]
  rw [s1, show idx_main_v62 (idx_main_v63 (ix2 r j)) = ix1 j from funext fun a => Fin.ext (by match a with | ⟨0, _⟩ => rfl)]
  rfl

end Cert.ReferenceIdeal.RefValue

end
-- ==== Proof.LibRowReduce.lean ====
/-
  A REDUCTION ALONG THE ROWS OF A TABLE, KEPT AS A COLUMN, read at an element.

  A body reduces a block [R, D] over its second axis to a vector [R] and reshapes that to a column [R, 1]
  (a sum or a maximum "with the axis kept").  Read at (p, 0) the column is the vector at p; the vector at p is,
  for a sum, the sum over k < D of the block at (p, k), and for a maximum, the fold of max from the starting value
  over the same entries.  The index inserted at k into the reduced index (p) is (p, k).
-/
import Idealize.ShloMosaic.PureOps.Ideal
import Idealize.ShloMosaic.PureOps.Ideal.Laws
import Idealize.ShloMosaic.Lib.Pipeline.Value
import Idealize.ShloMosaic.Lib.ValueIdx

noncomputable section

namespace Cert.LibRowReduce

open Idealize.ShloMosaic Idealize.ShloMosaic.ValueIdx

/-- A vector [a] cast to a column [a, 1] reads, at (i, u), the vector at i, whatever the unit coordinate u. -/
theorem column_of_vector_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index of the block that reduces into row p at position k of the reduced axis is (p, k). -/
theorem lift_row {R D : Nat} (h : (⟨2, ![R, D]⟩ : Shape).Reduces [1] ⟨1, ![R]⟩) (p : Fin R) (k : Fin D) :
    h.lift (ix1 p) k = ix2 p k := by
  funext a; apply Fin.ext
  match a with
  | ⟨0, _⟩ => rfl
  | ⟨1, _⟩ => rfl

/-- A sum over the second axis of a block, at row p: the sum over k of the block at (p, k). -/
theorem row_sum_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ)
    (p : Fin R) :
    multiReduction .add [1] ⟨1, ![R]⟩ src acc h hφ hacc (ix1 p) = ∑ k : Fin D, src (ix2 p k) := by
  refine (Ideal.multiReduction_add_single src acc h hφ hacc (ix1 p)).trans ?_
  show (∑ k : Fin D, src (h.lift (ix1 p) k)) = _
  exact Finset.sum_congr rfl fun k _ => congrArg src (lift_row h p k)

/-- A maximum over the second axis of a block, at row p: the fold of max, from the starting value, over the block's
    entries (p, k). -/
theorem row_max_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.maximumf.neutral φ hφ)
    (p : Fin R) :
    multiReduction .maximumf [1] ⟨1, ![R]⟩ src acc h hφ hacc (ix1 p)
      = (Finset.univ : Finset (Fin D)).fold max (Ideal.ofBits φ acc) (fun k => src (ix2 p k)) := by
  refine (Ideal.multiReduction_maximumf_single src acc h hφ hacc (ix1 p)).trans ?_
  show (Finset.univ : Finset (Fin D)).fold max (Ideal.ofBits φ acc) (src ∘ h.lift (ix1 p)) = _
  rw [show src ∘ h.lift (ix1 p) = fun k => src (ix2 p k) from funext fun k => congrArg src (lift_row h p k)]
  rfl

end Cert.LibRowReduce

end
-- ==== Proof.Bridge.lean ====
/-
  The kernel's result is the reference's.

  The kernel holds the reciprocal counts as a column and each bias as a row; read at an entry the column is `1 / c(r)` of the
  clipped count and the row is the bias at `j`, so each of its layers is `Sage.layer` of the aggregated rows, the clipped
  counts and the plain bias, and its classifier is `Sage.classify`. Under the precondition no message is the fill value, so the
  aggregated rows are the gathered rows summed into their destinations: the reference's own aggregation, of the same table at
  the same edges. With the reference's stages read as the same functions, the two results agree layer by layer.
-/
import proofs.«400879_j15814069584246_1_alg».proof.Proof.KValue
import proofs.«400879_j15814069584246_1_alg».proof.Proof.KMask
import proofs.«400879_j15814069584246_1_alg».proof.Proof.RefValue
import proofs.«400879_j15814069584246_1_alg».proof.Proof.LibRowReduce
import Idealize.ShloMosaic.Lib.IdealHost
import Idealize.ShloMosaic.Lib.Pipeline.Value

noncomputable section

namespace Cert.Bridge

open Idealize.ShloMosaic Idealize.ShloMosaic.TcCoe Idealize.SL.Sem Idealize.ShloMosaic.ValueIdx
open Cert.Sage Cert.LibRowReduce Cert.KernelIdeal.Host
open Cert.KernelIdeal (S100000x64 S100000x1 S100000 S64x64 S64 S1x64 S40x64 S40 S1x40 S100000x40 S1600000 S2x1600000)

/-- A vector `[b]` cast to a row `[1, b]` reads, at `(u, j)`, the vector at `j`. -/
theorem row_of_vector_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

theorem layerK_apply (agg : SN64.Idx → EReal) (inv : SN1.Idx → EReal) (feat : SN64.Idx → EReal)
    (Wl : SW.Idx → EReal) (bl : SR64.Idx → EReal) (Wr : SW.Idx → EReal) (r : Fin 100000) (j : Fin 64) :
    layerK agg inv feat Wl bl Wr (ix2 r j) = entry (fun k => agg (ix2 r k)) (inv (ix2 r (0 : Fin 1)))
      (fun k => feat (ix2 r k)) (fun k => Wl (ix2 j k)) (fun k => Wr (ix2 j k)) (bl (ix2 (0 : Fin 1) j)) := rfl

theorem classifyK_apply (feat : SN64.Idx → EReal) (Wc : SC.Idx → EReal) (bc : SR40.Idx → EReal) (r : Fin 100000) (j : Fin 40) :
    classifyK feat Wc bc (ix2 r j) = logit (fun k => feat (ix2 r k)) (fun k => Wc (ix2 j k)) (bc (ix2 (0 : Fin 1) j)) := rfl

/-- The kernel's layer over its layouts is the layer over the clipped counts and the plain bias. -/
theorem layerK_eq (agg feat : FVec Ideal S100000x64 .f32) (d : IVec S1600000 32) (Wl Wr : FVec Ideal S64x64 .f32) (b : FVec Ideal S64 .f32) :
    layerK agg (invOf (F := Ideal) d) feat Wl (rowOf (F := Ideal) b) Wr = layer agg (cntOf (F := Ideal) d) feat Wl b Wr := by
  funext i
  obtain ⟨r, j, rfl⟩ : ∃ (r : Fin 100000) (j : Fin 64), i = ix2 r j := ⟨i 0, i 1, eq_ix2 i⟩
  rw [layerK_apply, layer_apply]
  have e1 : invOf (F := Ideal) d (ix2 r (0 : Fin 1)) = Ideal.div 1 (cntOf (F := Ideal) d (ix1 r)) := by
    unfold invOf
    rw [column_of_vector_apply]
    have hd : ∀ (a b : FVec Ideal S100000 .f32) (i : S100000.Idx), Host.divf a b i = Ideal.div (a i) (b i) := fun _ _ _ => rfl
    rw [hd, broadcastInDim_scalar_apply, constant_apply, Ideal.ofBits_one_f32]
  have e2 : rowOf (F := Ideal) b (ix2 (0 : Fin 1) j) = b (ix1 j) := by
    unfold rowOf; exact row_of_vector_apply _ _ _ _
  rw [e1, e2]

/-- The kernel's classifier over its bias row is the classifier over the plain bias. -/
theorem classifyK_eq (feat : FVec Ideal S100000x64 .f32) (Wc : FVec Ideal S40x64 .f32) (b : FVec Ideal S40 .f32) :
    classifyK feat Wc (rowOf40 (F := Ideal) b) = classify feat Wc b := by
  funext i
  obtain ⟨r, j, rfl⟩ : ∃ (r : Fin 100000) (j : Fin 40), i = ix2 r j := ⟨i 0, i 1, eq_ix2 i⟩
  rw [classifyK_apply, classify_apply]
  have e2 : rowOf40 (F := Ideal) b (ix2 (0 : Fin 1) j) = b (ix1 j) := by
    unfold rowOf40; exact row_of_vector_apply _ _ _ _
  rw [e2]

/-- Where every source index passes the range test the aggregated rows are the gathered rows summed into their destinations. -/
theorem aggOf_eq (f : FVec Ideal S100000x64 .f32) (s d : IVec S1600000 32) (hs : ∀ e, Cert.KernelIdeal.Mask.okWord (s e) = 1#1) :
    aggOf (F := Ideal) f s d = sumInto (F := Ideal) (rowsOf f s) d := by
  unfold aggOf; rw [Cert.KernelIdeal.Mask.msgsOf_eq f s hs]

/-! ## The reference's aggregation and counts are the same terms -/

open Cert.ReferenceIdeal.Read in
theorem ref_agg1 (x0 : FVec Ideal S100000x64 .f32) (x1 : IVec S2x1600000 32) :
    val_main_v13 (F := Ideal) x0 x1 = sumInto (F := Ideal) (rowsOf x0 (srcOf x1)) (dstOf x1) := rfl
open Cert.ReferenceIdeal.Read in
theorem ref_cnt1 (x1 : IVec S2x1600000 32) : val_main_v19 (F := Ideal) x1 = cntOf (F := Ideal) (dstOf x1) := rfl

open Cert.ReferenceIdeal.Read in
theorem ref_agg2 (x0 : FVec Ideal S100000x64 .f32) (x1 : IVec S2x1600000 32) (x2 : FVec Ideal S64x64 .f32) (x3 : FVec Ideal S64 .f32) (x4 : FVec Ideal S64x64 .f32) :
    val_main_v41 (F := Ideal) x0 x1 x2 x3 x4
      = sumInto (F := Ideal) (rowsOf (val_main_v31 (F := Ideal) x0 x1 x2 x3 x4) (srcOf x1)) (dstOf x1) := rfl
open Cert.ReferenceIdeal.Read in
theorem ref_cnt2 (x1 : IVec S2x1600000 32) : val_main_v47 (F := Ideal) x1 = cntOf (F := Ideal) (dstOf x1) := rfl

/-! ## The two results -/

open Cert.KernelIdeal Cert.KernelIdeal.Net Cert.ReferenceIdeal.Read Cert.ReferenceIdeal.RefValue in
/-- THE BRIDGE: under the precondition the kernel's logits are the reference's, of the same launch arrays. -/
theorem out_eq (m : (ℓ : Loc Cert.KernelIdeal.nD Cert.KernelIdeal.τ Cert.KernelIdeal.sig) → Buf (Elt Ideal) ℓ)
    (h : Cert.Pre_KernelIdeal m) (c : Dev Cert.KernelIdeal.nD) :
    out m c = val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  have hs := Cert.KernelIdeal.Mask.pre_edge m h c
  have H1 : h1 m c = val_main_v31 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
    unfold h1
    rw [layerK_eq, aggOf_eq _ _ _ hs, ref_layer1, ref_agg1, ref_cnt1]
  have H2 : h2 m c = val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
    unfold h2
    rw [layerK_eq, aggOf_eq _ _ _ hs, H1, ref_layer2, ref_agg2, ref_cnt2]
  unfold out
  rw [classifyK_eq, H2, ref_classify]

end Cert.Bridge

end
-- ==== Proof.lean ====
/-
  A two-layer mean-aggregating graph network with a linear classifier, on 100000 nodes and 1600000 edges.

  Each layer sends every edge's source row to its destination (a gather of rows, then a sum into destination rows), divides by
  the number of incoming edges clipped below at one, and maps the mean and the node's own row through two 64 × 64 weight tables
  plus a bias, clipped below at zero; the classifier is one more table plus a bias. The kernel does the gathers and sums on the
  host and the dense part in three blocked regions of twenty row blocks each, multiplying by the reciprocal count where the
  reference divides by the count; its gather fills a message with a fixed value when the source index, after a negative index
  is counted from the end, is not a row of the table.

  Over the extended reals the format changes are the identity, each block product is a plain sum over the 64 contracted
  coordinates, and multiplying by the reciprocal of a divisor that is not zero is dividing by it (a count clipped below at one is
  never zero): so each region's rows are the reference's rows of the same arrays. Where every source index, so normalised, is
  a row of the table — the precondition's added conjunct, outside which the reference itself indexes out of range — no message
  is the fill value and the two aggregations are one. The three frames: the two programs with kernels by their generated
  frames, the reference by its generated run; no operation was rewritten by the idealization.
-/
import proofs.«400879_j15814069584246_1_alg».proof.Defs
import proofs.«400879_j15814069584246_1_alg».proof.Proof.Gen.Kernel
import proofs.«400879_j15814069584246_1_alg».proof.Proof.Gen.Kernel.Skeleton
import proofs.«400879_j15814069584246_1_alg».proof.Proof.Gen.Kernel.Launch
import proofs.«400879_j15814069584246_1_alg».proof.Proof.Gen.Kernel.Points
import proofs.«400879_j15814069584246_1_alg».proof.Proof.Gen.Kernel.Frame
import proofs.«400879_j15814069584246_1_alg».proof.Proof.Gen.KernelIdeal
import proofs.«400879_j15814069584246_1_alg».proof.Proof.Gen.KernelIdeal.Skeleton
import proofs.«400879_j15814069584246_1_alg».proof.Proof.Gen.KernelIdeal.Launch
import proofs.«400879_j15814069584246_1_alg».proof.Proof.Gen.KernelIdeal.Points
import proofs.«400879_j15814069584246_1_alg».proof.Proof.Gen.KernelIdeal.Frame
import proofs.«400879_j15814069584246_1_alg».proof.Proof.Gen.ReferenceIdeal
import proofs.«400879_j15814069584246_1_alg».proof.Proof.Gen.Pre_finite_inputs
import proofs.«400879_j15814069584246_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result array ends at its logits of the launch arrays, the reference's at its own composed
    term of arrays that agree with them, and under the precondition the two are equal. -/
theorem algebraic : Cert.algebraic_KernelIdeal_ReferenceIdeal := by
  intro m ρ m' ρ' hpre hagree
  refine ⟨fun c => Cert.KernelIdeal.Net.out m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v64_eq, a0, a1, a2, a3, a4, a5, a6, a7, a8, a9]
  exact (Cert.Bridge.out_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
